-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S385x385x385 : Shape := ⟨3, ![385, 385, 385]⟩
abbrev S_ : Shape := ⟨0, ![]⟩

class Facts : Prop where
  bcast_S_S385x385x385 : S_.BroadcastsInDim S385x385x385 (![] : Fin 0 → Fin S385x385x385.rank)
  reducesTo_S385x385x385_S_d0_1_2 : S385x385x385.ReducesTo [0, 1, 2] S_
  h_S_ : 0 < S_.numel

variable [Facts]

def fn {F : FTy → Type} [FloatOps F] (main_arg0 : FVec F S385x385x385 .f32) : IVec S_ 1 :=
  let main_v0 : FVec F S385x385x385 .f32 := Host.absf main_arg0
  let main_cst : FVec F S_ .f32 := constant S_ .f32 0x7F800000#32
  let main_v1 : FVec F S385x385x385 .f32 := broadcastInDim S385x385x385 ![] bcast_S_S385x385x385 main_cst
  let main_v2 : IVec S385x385x385 1 := cmpf .olt main_v0 main_v1
  let main_c : IVec S_ 1 := constantI S_ 1 1#1
  let main_v3 : IVec S_ 1 := (fun x v => Host.reduce IntOp.andi x v reducesTo_S385x385x385_S_d0_1_2 h_S_) main_v2 main_c
  main_v3
-- ==== Kernel.lean ====
abbrev S385x385x385 : Shape := ⟨3, ![385, 385, 385]⟩
abbrev S1x1 : Shape := ⟨2, ![1, 1]⟩
abbrev S8x385x385 : Shape := ⟨3, ![8, 385, 385]⟩
abbrev S1x385x385 : Shape := ⟨3, ![1, 385, 385]⟩
abbrev S385x385 : Shape := ⟨2, ![385, 385]⟩
abbrev S7x385x385 : Shape := ⟨3, ![7, 385, 385]⟩
abbrev S7x385 : Shape := ⟨2, ![7, 385]⟩
abbrev S7 : Shape := ⟨1, ![7]⟩
abbrev S7x1 : Shape := ⟨2, ![7, 1]⟩
abbrev S1 : Shape := ⟨1, ![1]⟩
abbrev S385 : Shape := ⟨1, ![385]⟩
abbrev S385x1 : Shape := ⟨2, ![385, 1]⟩
abbrev S8x384x385 : Shape := ⟨3, ![8, 384, 385]⟩
abbrev S8x384 : Shape := ⟨2, ![8, 384]⟩
abbrev S8 : Shape := ⟨1, ![8]⟩
abbrev S8x1 : Shape := ⟨2, ![8, 1]⟩
abbrev S8x385x384 : Shape := ⟨3, ![8, 385, 384]⟩
abbrev S8x385 : Shape := ⟨2, ![8, 385]⟩
abbrev S384x385 : Shape := ⟨2, ![384, 385]⟩
abbrev S384 : Shape := ⟨1, ![384]⟩
abbrev S384x1 : Shape := ⟨2, ![384, 1]⟩
abbrev S385x384 : Shape := ⟨2, ![385, 384]⟩
abbrev S_ : Shape := ⟨0, ![]⟩

abbrev nBuf : Space → Nat
  | .hbm => 3
  | .vmem => 5
  | .smem => 0
  | _ => 0

abbrev bufTy : (tb : Table) → Fin (tcTables nBuf tb) → BufTy
  | .hbm, ⟨0, _⟩ => ⟨S385x385x385, .f32⟩
  | .hbm, ⟨1, _⟩ => ⟨S1x1, .f32⟩
  | .hbm, ⟨2, _⟩ => ⟨S_, .f32⟩
  | .local _ .vmem, ⟨0, _⟩ => ⟨S8x385x385, .f32⟩
  | .local _ .vmem, ⟨1, _⟩ => ⟨S8x385x385, .f32⟩
  | .local _ .vmem, ⟨2, _⟩ => ⟨S1x385x385, .f32⟩
  | .local _ .vmem, ⟨3, _⟩ => ⟨S1x385x385, .f32⟩
  | .local _ .vmem, ⟨4, _⟩ => ⟨S1x1, .f32⟩
  | _, _ => ⟨S385x385x385, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![48], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c1_i32 : BitVec 32 := 1#32
  let v0 : BitVec 32 := Scalar.addi arg0 c1_i32
  let c8_i32 : BitVec 32 := 8#32
  let v1 : BitVec 32 := Scalar.muli v0 c8_i32
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x385x385 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x385x385 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1x1_S1x1_0_0 : ∀ a, (![0, 0] : Fin 2 → Nat) a + S1x1.size a ≤ S1x1.size a
  h_S1x1 : 0 < S1x1.numel
  inb_S8x385x385_S8x385x385_0_0_0 : ∀ a, (![0, 0, 0] : Fin 3 → Nat) a + S8x385x385.size a ≤ S8x385x385.size a
  h_S8x385x385 : 0 < S8x385x385.numel
  inb_S1x385x385_S1x385x385_0_0_0 : ∀ a, (![0, 0, 0] : Fin 3 → Nat) a + S1x385x385.size a ≤ S1x385x385.size a
  h_S1x385x385 : 0 < S1x385x385.numel
  shapeCasts_S1x385x385_S385x385 : S1x385x385.ShapeCasts S385x385
  slices_S8x385x385_o7_0_0_S1x385x385 : S8x385x385.Slices ![7, 0, 0] S1x385x385
  slices_S8x385x385_o1_0_0_S7x385x385 : S8x385x385.Slices ![1, 0, 0] S7x385x385
  slices_S8x385x385_o0_0_0_S7x385x385 : S8x385x385.Slices ![0, 0, 0] S7x385x385
  reduces_S7x385x385_S7x385 : S7x385x385.Reduces [2] S7x385
  reduces_S7x385_S7 : S7x385.Reduces [1] S7
  shapeCasts_S7_S7x1 : S7.ShapeCasts S7x1
  reduces_S7x1_S1 : S7x1.Reduces [0] S1
  shapeCasts_S1_S1x1 : S1.ShapeCasts S1x1
  reduces_S385x385_S385 : S385x385.Reduces [1] S385
  shapeCasts_S385_S385x1 : S385.ShapeCasts S385x1
  reduces_S385x1_S1 : S385x1.Reduces [0] S1
  slices_S8x385x385_o0_1_0_S8x384x385 : S8x385x385.Slices ![0, 1, 0] S8x384x385
  slices_S8x385x385_o0_0_0_S8x384x385 : S8x385x385.Slices ![0, 0, 0] S8x384x385
  reduces_S8x384x385_S8x384 : S8x384x385.Reduces [2] S8x384
  reduces_S8x384_S8 : S8x384.Reduces [1] S8
  shapeCasts_S8_S8x1 : S8.ShapeCasts S8x1
  reduces_S8x1_S1 : S8x1.Reduces [0] S1
  slices_S8x385x385_o0_0_1_S8x385x384 : S8x385x385.Slices ![0, 0, 1] S8x385x384
  slices_S8x385x385_o0_0_0_S8x385x384 : S8x385x385.Slices ![0, 0, 0] S8x385x384
  reduces_S8x385x384_S8x385 : S8x385x384.Reduces [2] S8x385
  reduces_S8x385_S8 : S8x385.Reduces [1] S8
  slices_S385x385_o1_0_S384x385 : S385x385.Slices ![1, 0] S384x385
  slices_S385x385_o0_0_S384x385 : S385x385.Slices ![0, 0] S384x385
  reduces_S384x385_S384 : S384x385.Reduces [1] S384
  shapeCasts_S384_S384x1 : S384.ShapeCasts S384x1
  reduces_S384x1_S1 : S384x1.Reduces [0] S1
  slices_S385x385_o0_1_S385x384 : S385x385.Slices ![0, 1] S385x384
  slices_S385x385_o0_0_S385x384 : S385x385.Slices ![0, 0] S385x384
  reduces_S385x384_S385 : S385x384.Reduces [1] S385
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S8x385x385.size a < S385x385x385.size a
  hwx0_0 : ∀ i : grid0.Coords, EltTy.bits .f32 = 32 ∨ (Rect.unit (s := S385x385x385) (fun a => cc0_transform_0 i a * S8x385x385.size a) (fun a => (Pipeline.Clip.of (cc0_transform_0 i a) (S8x385x385.size a) (S385x385x385.size a)).extent (S8x385x385.size a)) fun a => Pipeline.Clip.inb (Pipeline.Clip.ok_of (hstart0_0 i a))).WholeWords (EltTy.packing .f32)
  hwxs0_0 : ∀ i : grid0.Coords, EltTy.bits .f32 = 32 ∨ (Rect.unit (s := S8x385x385) (fun _ => 0) (fun a => (Pipeline.Clip.of (cc0_transform_0 i a) (S8x385x385.size a) (S385x385x385.size a)).extent (S8x385x385.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x385x385.size a ≤ S385x385x385.size a
  hwx0_1 : ∀ i : grid0.Coords, EltTy.bits .f32 = 32 ∨ (Rect.block (s := S385x385x385) S1x385x385.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpecClip (Memref.whole main_arg0) S8x385x385.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_arg0) S1x385x385.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S385x385x385 : Shape := ⟨3, ![385, 385, 385]⟩
abbrev S384x385x385 : Shape := ⟨3, ![384, 385, 385]⟩
abbrev S_ : Shape := ⟨0, ![]⟩
abbrev S385x384x385 : Shape := ⟨3, ![385, 384, 385]⟩
abbrev S385x385x384 : Shape := ⟨3, ![385, 385, 384]⟩

abbrev nBuf : Space → Nat
  | .hbm => 21
  | .vmem => 0
  | .smem => 0
  | _ => 0

abbrev bufTy : (tb : Table) → Fin (tcTables nBuf tb) → BufTy
  | .hbm, ⟨0, _⟩ => ⟨S385x385x385, .f32⟩
  | .hbm, ⟨1, _⟩ => ⟨S384x385x385, .f32⟩
  | .hbm, ⟨2, _⟩ => ⟨S384x385x385, .f32⟩
  | .hbm, ⟨3, _⟩ => ⟨S384x385x385, .f32⟩
  | .hbm, ⟨4, _⟩ => ⟨S384x385x385, .f32⟩
  | .hbm, ⟨5, _⟩ => ⟨S_, .f32⟩
  | .hbm, ⟨6, _⟩ => ⟨S_, .f32⟩
  | .hbm, ⟨7, _⟩ => ⟨S385x384x385, .f32⟩
  | .hbm, ⟨8, _⟩ => ⟨S385x384x385, .f32⟩
  | .hbm, ⟨9, _⟩ => ⟨S385x384x385, .f32⟩
  | .hbm, ⟨10, _⟩ => ⟨S385x384x385, .f32⟩
  | .hbm, ⟨11, _⟩ => ⟨S_, .f32⟩
  | .hbm, ⟨12, _⟩ => ⟨S_, .f32⟩
  | .hbm, ⟨13, _⟩ => ⟨S385x385x384, .f32⟩
  | .hbm, ⟨14, _⟩ => ⟨S385x385x384, .f32⟩
  | .hbm, ⟨15, _⟩ => ⟨S385x385x384, .f32⟩
  | .hbm, ⟨16, _⟩ => ⟨S385x385x384, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | _, _ => ⟨S385x385x385, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst_1 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩

abbrev nD : Nat := 1
abbrev τ : Topo := Topo.v7x

variable {F : FTy → Type} [FloatOps F]

class Facts₀ : Prop where
  slices_S385x385x385_S384x385x385_1_0_0 : S385x385x385.Slices ![1, 0, 0] S384x385x385
  slices_S385x385x385_S384x385x385_0_0_0 : S385x385x385.Slices ![0, 0, 0] S384x385x385
  reducesTo_S384x385x385_S_d0_1_2 : S384x385x385.ReducesTo [0, 1, 2] S_
  h_S_ : 0 < S_.numel
  slices_S385x385x385_S385x384x385_0_1_0 : S385x385x385.Slices ![0, 1, 0] S385x384x385
  slices_S385x385x385_S385x384x385_0_0_0 : S385x385x385.Slices ![0, 0, 0] S385x384x385
  reducesTo_S385x384x385_S_d0_1_2 : S385x384x385.ReducesTo [0, 1, 2] S_
  slices_S385x385x385_S385x385x384_0_0_1 : S385x385x385.Slices ![0, 0, 1] S385x385x384
  slices_S385x385x385_S385x385x384_0_0_0 : S385x385x385.Slices ![0, 0, 0] S385x385x384
  reducesTo_S385x385x384_S_d0_1_2 : S385x385x384.ReducesTo [0, 1, 2] S_

variable [Facts₀]

class Facts : Prop extends Facts₀ where

variable [Facts]
-- ==== Proof.KBody.lean ====
/-
  The kernel's body on whole staging memrefs, at a first, a middle and the last grid point.

  The body branches twice on the grid coordinate: where it is 0 the one-entry output is reset to zero before
  anything is added; where it is 47 the last row's own column and lane terms are added first.  In each of the
  three combinations the grid meets, the body loads the slab and the row that follows it, and stores into the output
  the point's total over what the output held.  Each run is stated with the list of pieces its stores leave in the
  output's memref, found when the run hands the memref back; read back, the pieces are the payload terms.
-/
import proofs.«170673_j44753559224580_1_alg».proof.Proof.Gen.Kernel.Launch
import proofs.«170673_j44753559224580_1_alg».proof.Proof.Gen.Kernel.Skeleton
import proofs.«170673_j44753559224580_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The body's first branch is taken where the grid coordinate is 0 (the output is reset there), -/
abbrev condFirst (i : grid0.Coords) : Prop :=
  (Scalar.cmpi .ne (Scalar.extui (Scalar.cmpi .eq (BitVec.ofNat 32 (i 0).val) 0#32)) 0#32) = 1#1
/-- and its second where it is 47 (the last row's own terms are added there). -/
abbrev condLast (i : grid0.Coords) : Prop :=
  (Scalar.cmpi .ne (Scalar.extui (Scalar.cmpi .eq (BitVec.ofNat 32 (i 0).val) 47#32)) 0#32) = 1#1

theorem hcondFirst : ∀ t : Fin cfg0.N, condFirst (grid0.coords t) ↔ t.val = 0 :=
  (by decide +kernel : ∀ t : Fin grid0.N, condFirst (grid0.coords t) ↔ t.val = 0)
theorem hcondLast : ∀ t : Fin cfg0.N, condLast (grid0.coords t) ↔ t.val = 47 :=
  (by decide +kernel : ∀ t : Fin grid0.N, condLast (grid0.coords t) ↔ t.val = 47)

set_option maxHeartbeats 1000000 in
/-- The body at the first point: on whole staging memrefs, the slab's at x0, the next row's at x1, the output's at anything, it runs to the continuation with the two inputs as they were and the output's memref written with the pieces found. -/
noncomputable def runFirst (c : Dev nD) (i : grid0.Coords) (arg1 : Memref sig .tc .vmem S8x385x385 .f32) (harg1 : arg1.IsWhole)
    (arg2 : Memref sig .tc .vmem S1x385x385 .f32) (harg2 : arg2.IsWhole) (arg3 : Memref sig .tc .vmem S1x1 .f32) (harg3 : arg3.IsWhole)
    (hc0 : condFirst i) (hc1 : ¬condLast i)
    (x0 : Vec F S8x385x385 .f32) (x1 : Vec F S1x385x385 .f32) :
    { L : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L)) -∗ K ⟨⟩))
          ⊢ wp frame (wpE (defs₀ (F := F)) Variants.none c none) E (cc0__kernel i arg1 harg1 arg2 harg2 arg3 harg3) K } := by
  refine ⟨?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact H2

set_option maxHeartbeats 1000000 in
/-- The body at a middle point: the output's memref enters at xo. -/
noncomputable def runMid (c : Dev nD) (i : grid0.Coords) (arg1 : Memref sig .tc .vmem S8x385x385 .f32) (harg1 : arg1.IsWhole)
    (arg2 : Memref sig .tc .vmem S1x385x385 .f32) (harg2 : arg2.IsWhole) (arg3 : Memref sig .tc .vmem S1x1 .f32) (harg3 : arg3.IsWhole)
    (hc0 : ¬condFirst i) (hc1 : ¬condLast i)
    (x0 : Vec F S8x385x385 .f32) (x1 : Vec F S1x385x385 .f32) (xo : Vec F S1x1 .f32) :
    { L : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare xo
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L)) -∗ K ⟨⟩))
          ⊢ wp frame (wpE (defs₀ (F := F)) Variants.none c none) E (cc0__kernel i arg1 harg1 arg2 harg2 arg3 harg3) K } := by
  refine ⟨?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact H2

set_option maxHeartbeats 1000000 in
/-- The body at the last point: the output's memref enters at xo; both of its updates are among the pieces. -/
noncomputable def runLast (c : Dev nD) (i : grid0.Coords) (arg1 : Memref sig .tc .vmem S8x385x385 .f32) (harg1 : arg1.IsWhole)
    (arg2 : Memref sig .tc .vmem S1x385x385 .f32) (harg2 : arg2.IsWhole) (arg3 : Memref sig .tc .vmem S1x1 .f32) (harg3 : arg3.IsWhole)
    (hc0 : ¬condFirst i) (hc1 : condLast i)
    (x0 : Vec F S8x385x385 .f32) (x1 : Vec F S1x385x385 .f32) (xo : Vec F S1x1 .f32) :
    { L : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare xo
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L)) -∗ K ⟨⟩))
          ⊢ wp frame (wpE (defs₀ (F := F)) Variants.none c none) E (cc0__kernel i arg1 harg1 arg2 harg2 arg3 harg3) K } := by
  refine ⟨?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact H2

/-- One memref of the output's shape, through which the pieces are read back (the choice does not matter). -/
abbrev VO : View sig .tc .vmem S1x1 .f32 := (Memref.whole cc0_stg2_0 : Memref sig .tc .vmem S1x1 .f32).view

/-- The pieces the first point's run found cover the output's one entry. -/
theorem coverFirst (c : Dev nD) (i : grid0.Coords) (arg1 : Memref sig .tc .vmem S8x385x385 .f32) (harg1 : arg1.IsWhole)
    (arg2 : Memref sig .tc .vmem S1x385x385 .f32) (harg2 : arg2.IsWhole) (arg3 : Memref sig .tc .vmem S1x1 .f32) (harg3 : arg3.IsWhole)
    (hc0 : condFirst i) (hc1 : ¬condLast i) (x0 : Vec F S8x385x385 .f32) (x1 : Vec F S1x385x385 .f32) (y : S1x1.Idx) :
    ∃ pc ∈ (runFirst c i arg1 harg1 arg2 harg2 arg3 harg3 hc0 hc1 x0 x1).1, y ∈ pc.1.set :=
  View.cover_of_tiledL (runFirst c i arg1 harg1 arg2 harg2 arg3 harg3 hc0 hc1 x0 x1).1 S1x1.size (by sl_kernel_rfl) y

/-- What the first point leaves in the output's staging buffer: its pieces read back. -/
def outFirst (c : Dev nD) (i : grid0.Coords) (arg1 : Memref sig .tc .vmem S8x385x385 .f32) (harg1 : arg1.IsWhole)
    (arg2 : Memref sig .tc .vmem S1x385x385 .f32) (harg2 : arg2.IsWhole) (arg3 : Memref sig .tc .vmem S1x1 .f32) (harg3 : arg3.IsWhole)
    (hc0 : condFirst i) (hc1 : ¬condLast i) (x0 : Vec F S8x385x385 .f32) (x1 : Vec F S1x385x385 .f32) : Vec F S1x1 .f32 :=
  VO.read (Elt F) (VO.writes (Elt F) VO.junk (runFirst c i arg1 harg1 arg2 harg2 arg3 harg3 hc0 hc1 x0 x1).1)

/-- It is the point's total added to what the output held after the reset. -/
theorem outFirst_eq (c : Dev nD) (i : grid0.Coords) (arg1 : Memref sig .tc .vmem S8x385x385 .f32) (harg1 : arg1.IsWhole)
    (arg2 : Memref sig .tc .vmem S1x385x385 .f32) (harg2 : arg2.IsWhole) (arg3 : Memref sig .tc .vmem S1x1 .f32) (harg3 : arg3.IsWhole)
    (hc0 : condFirst i) (hc1 : ¬condLast i) (x0 : Vec F S8x385x385 .f32) (x1 : Vec F S1x385x385 .f32) :
    outFirst c i arg1 harg1 arg2 harg2 arg3 harg3 hc0 hc1 x0 x1 = k0_pay2 (k0_pay5 x0) (k0_pay6 x0 x1) (k0_pay7 x0) (k0_pay8 x0) (k0_pay3 (F := F)) := by
  have hz2 : (![0, 0] : Fin 2 → Nat) = fun _ => 0 := funext fun a => by fin_cases a <;> rfl
  have hz3 : (![0, 0, 0] : Fin 3 → Nat) = fun _ => 0 := funext fun a => by fin_cases a <;> rfl
  unfold outFirst
  rw [View.read_writes_eq_canon _ _ _ (coverFirst c i arg1 harg1 arg2 harg2 arg3 harg3 hc0 hc1 x0 x1)]
  unfold runFirst
  dsimp only
  sl_unfold_words
  rw [View.canon_cons_unit_zero (S := S1x1) hz2]
  simp only [View.readAt_eq_ld, harg1.read_unread, harg2.read_unread, harg3.read_unread,
    View.ld_unit_zero (S := S8x385x385) hz3, View.ld_unit_zero (S := S1x385x385) hz3, View.ld_unit_zero (S := S1x1) hz2,
    View.readCov_unit_zero (S := S1x1) _ hz2]

/-- The pieces the middle point's run found cover the output's one entry. -/
theorem coverMid (c : Dev nD) (i : grid0.Coords) (arg1 : Memref sig .tc .vmem S8x385x385 .f32) (harg1 : arg1.IsWhole)
    (arg2 : Memref sig .tc .vmem S1x385x385 .f32) (harg2 : arg2.IsWhole) (arg3 : Memref sig .tc .vmem S1x1 .f32) (harg3 : arg3.IsWhole)
    (hc0 : ¬condFirst i) (hc1 : ¬condLast i) (x0 : Vec F S8x385x385 .f32) (x1 : Vec F S1x385x385 .f32) (xo : Vec F S1x1 .f32) (y : S1x1.Idx) :
    ∃ pc ∈ (runMid c i arg1 harg1 arg2 harg2 arg3 harg3 hc0 hc1 x0 x1 xo).1, y ∈ pc.1.set :=
  View.cover_of_tiledL (runMid c i arg1 harg1 arg2 harg2 arg3 harg3 hc0 hc1 x0 x1 xo).1 S1x1.size (by sl_kernel_rfl) y

/-- What the middle point leaves in the output's staging buffer: its pieces read back. -/
def outMid (c : Dev nD) (i : grid0.Coords) (arg1 : Memref sig .tc .vmem S8x385x385 .f32) (harg1 : arg1.IsWhole)
    (arg2 : Memref sig .tc .vmem S1x385x385 .f32) (harg2 : arg2.IsWhole) (arg3 : Memref sig .tc .vmem S1x1 .f32) (harg3 : arg3.IsWhole)
    (hc0 : ¬condFirst i) (hc1 : ¬condLast i) (x0 : Vec F S8x385x385 .f32) (x1 : Vec F S1x385x385 .f32) (xo : Vec F S1x1 .f32) : Vec F S1x1 .f32 :=
  VO.read (Elt F) (VO.writes (Elt F) VO.junk (runMid c i arg1 harg1 arg2 harg2 arg3 harg3 hc0 hc1 x0 x1 xo).1)

/-- It is the point's total added to what the output held. -/
theorem outMid_eq (c : Dev nD) (i : grid0.Coords) (arg1 : Memref sig .tc .vmem S8x385x385 .f32) (harg1 : arg1.IsWhole)
    (arg2 : Memref sig .tc .vmem S1x385x385 .f32) (harg2 : arg2.IsWhole) (arg3 : Memref sig .tc .vmem S1x1 .f32) (harg3 : arg3.IsWhole)
    (hc0 : ¬condFirst i) (hc1 : ¬condLast i) (x0 : Vec F S8x385x385 .f32) (x1 : Vec F S1x385x385 .f32) (xo : Vec F S1x1 .f32) :
    outMid c i arg1 harg1 arg2 harg2 arg3 harg3 hc0 hc1 x0 x1 xo = k0_pay2 (k0_pay5 x0) (k0_pay6 x0 x1) (k0_pay7 x0) (k0_pay8 x0) xo := by
  have hz2 : (![0, 0] : Fin 2 → Nat) = fun _ => 0 := funext fun a => by fin_cases a <;> rfl
  have hz3 : (![0, 0, 0] : Fin 3 → Nat) = fun _ => 0 := funext fun a => by fin_cases a <;> rfl
  unfold outMid
  rw [View.read_writes_eq_canon _ _ _ (coverMid c i arg1 harg1 arg2 harg2 arg3 harg3 hc0 hc1 x0 x1 xo)]
  unfold runMid
  dsimp only
  sl_unfold_words
  rw [View.canon_unit_zero (S := S1x1) hz2]
  simp only [View.readAt_eq_ld, harg1.read_unread, harg2.read_unread, harg3.read_unread,
    View.ld_unit_zero (S := S8x385x385) hz3, View.ld_unit_zero (S := S1x385x385) hz3, View.ld_unit_zero (S := S1x1) hz2,
    View.readCov_unit_zero (S := S1x1) _ hz2]

/-- The pieces the last point's run found cover the output's one entry. -/
theorem coverLast (c : Dev nD) (i : grid0.Coords) (arg1 : Memref sig .tc .vmem S8x385x385 .f32) (harg1 : arg1.IsWhole)
    (arg2 : Memref sig .tc .vmem S1x385x385 .f32) (harg2 : arg2.IsWhole) (arg3 : Memref sig .tc .vmem S1x1 .f32) (harg3 : arg3.IsWhole)
    (hc0 : ¬condFirst i) (hc1 : condLast i) (x0 : Vec F S8x385x385 .f32) (x1 : Vec F S1x385x385 .f32) (xo : Vec F S1x1 .f32) (y : S1x1.Idx) :
    ∃ pc ∈ (runLast c i arg1 harg1 arg2 harg2 arg3 harg3 hc0 hc1 x0 x1 xo).1, y ∈ pc.1.set :=
  View.cover_of_tiledL (runLast c i arg1 harg1 arg2 harg2 arg3 harg3 hc0 hc1 x0 x1 xo).1 S1x1.size (by sl_kernel_rfl) y

/-- What the last point leaves in the output's staging buffer: its pieces read back. -/
def outLast (c : Dev nD) (i : grid0.Coords) (arg1 : Memref sig .tc .vmem S8x385x385 .f32) (harg1 : arg1.IsWhole)
    (arg2 : Memref sig .tc .vmem S1x385x385 .f32) (harg2 : arg2.IsWhole) (arg3 : Memref sig .tc .vmem S1x1 .f32) (harg3 : arg3.IsWhole)
    (hc0 : ¬condFirst i) (hc1 : condLast i) (x0 : Vec F S8x385x385 .f32) (x1 : Vec F S1x385x385 .f32) (xo : Vec F S1x1 .f32) : Vec F S1x1 .f32 :=
  VO.read (Elt F) (VO.writes (Elt F) VO.junk (runLast c i arg1 harg1 arg2 harg2 arg3 harg3 hc0 hc1 x0 x1 xo).1)

/-- It is the point's total added to what the output held with the last row's terms added. -/
theorem outLast_eq (c : Dev nD) (i : grid0.Coords) (arg1 : Memref sig .tc .vmem S8x385x385 .f32) (harg1 : arg1.IsWhole)
    (arg2 : Memref sig .tc .vmem S1x385x385 .f32) (harg2 : arg2.IsWhole) (arg3 : Memref sig .tc .vmem S1x1 .f32) (harg3 : arg3.IsWhole)
    (hc0 : ¬condFirst i) (hc1 : condLast i) (x0 : Vec F S8x385x385 .f32) (x1 : Vec F S1x385x385 .f32) (xo : Vec F S1x1 .f32) :
    outLast c i arg1 harg1 arg2 harg2 arg3 harg3 hc0 hc1 x0 x1 xo = k0_pay2 (k0_pay5 x0) (k0_pay6 x0 x1) (k0_pay7 x0) (k0_pay8 x0) (k0_pay1 (k0_pay4 x1) xo) := by
  have hz2 : (![0, 0] : Fin 2 → Nat) = fun _ => 0 := funext fun a => by fin_cases a <;> rfl
  have hz3 : (![0, 0, 0] : Fin 3 → Nat) = fun _ => 0 := funext fun a => by fin_cases a <;> rfl
  unfold outLast
  rw [View.read_writes_eq_canon _ _ _ (coverLast c i arg1 harg1 arg2 harg2 arg3 harg3 hc0 hc1 x0 x1 xo)]
  unfold runLast
  dsimp only
  sl_unfold_words
  rw [View.canon_cons_unit_zero (S := S1x1) hz2]
  simp only [View.readAt_eq_ld, harg1.read_unread, harg2.read_unread, harg3.read_unread,
    View.ld_unit_zero (S := S8x385x385) hz3, View.ld_unit_zero (S := S1x385x385) hz3, View.ld_unit_zero (S := S1x1) hz2,
    View.readCov_unit_zero (S := S1x1) _ hz2]

end Cert.Kernel.Body

end
-- ==== Proof.KStep.lean ====
/-
  The kernel's accumulation, point by point, as pure values (at any float instance).

  At grid point `t` the body sees the slab of rows 8 t … 8 t + 7 of the grid and the row 8 t + 8 that follows it.
  What it leaves in the [1, 1] output is the point's total added to what the output held before: zero at the first
  point (the reset), the previous point's value otherwise, with the last row's own terms added first at the last
  point (47).  `accAt occ n` is the output after point `n`, by recursion on the point.
-/
import proofs.«170673_j44753559224580_1_alg».proof.Proof.Gen.Kernel.Skeleton
import Idealize.ShloMosaic.Lib.ValueIdx

noncomputable section

namespace Cert.Kernel.Step

open Cert.Kernel Cert.Kernel.Gen Idealize.ShloMosaic Idealize.ShloMosaic.ValueIdx

variable {F : FTy → Type} [FloatOps F]

/-- The point's own total over what the output held (`prev`). -/
def addPoint (x0 : Vec F S8x385x385 .f32) (x1 : Vec F S1x385x385 .f32) (prev : Vec F S1x1 .f32) : FVec F S1x1 .f32 :=
  k0_pay2 (k0_pay5 x0) (k0_pay6 x0 x1) (k0_pay7 x0) (k0_pay8 x0) prev

/-- The first point: the output is reset to zero first. -/
def stepFirst (x0 : Vec F S8x385x385 .f32) (x1 : Vec F S1x385x385 .f32) : FVec F S1x1 .f32 :=
  addPoint x0 x1 (k0_pay3 (F := F))

/-- A middle point. -/
def stepMid (x0 : Vec F S8x385x385 .f32) (x1 : Vec F S1x385x385 .f32) (prev : Vec F S1x1 .f32) : FVec F S1x1 .f32 :=
  addPoint x0 x1 prev

/-- The last point: the last row's own column and lane pairs go in first. -/
def stepLast (x0 : Vec F S8x385x385 .f32) (x1 : Vec F S1x385x385 .f32) (prev : Vec F S1x1 .f32) : FVec F S1x1 .f32 :=
  addPoint x0 x1 (k0_pay1 (k0_pay4 x1) prev)

/-- Rows 8 t … 8 t + 7 of the grid. -/
def slab (occ : Vec F S385x385x385 .f32) (t : Fin 48) : Vec F S8x385x385 .f32 :=
  fun j => occ (ix3 (⟨8 * t.val + (j 0).val, by have := t.isLt; have : (j 0).val < 8 := (j 0).isLt; omega⟩ : Fin 385)
    (⟨(j 1).val, (j 1).isLt⟩ : Fin 385) (⟨(j 2).val, (j 2).isLt⟩ : Fin 385))

/-- Row 8 t + 8 of the grid, as a slab of one row. -/
def nextRow (occ : Vec F S385x385x385 .f32) (t : Fin 48) : Vec F S1x385x385 .f32 :=
  fun j => occ (ix3 (⟨8 * t.val + 8, by have := t.isLt; omega⟩ : Fin 385)
    (⟨(j 1).val, (j 1).isLt⟩ : Fin 385) (⟨(j 2).val, (j 2).isLt⟩ : Fin 385))

/-- The output after point `n`. -/
def accAt (occ : Vec F S385x385x385 .f32) : (n : ℕ) → n < 48 → Vec F S1x1 .f32
  | 0, h => stepFirst (slab occ ⟨0, h⟩) (nextRow occ ⟨0, h⟩)
  | n + 1, h =>
    if n + 1 = 47 then stepLast (slab occ ⟨n + 1, h⟩) (nextRow occ ⟨n + 1, h⟩) (accAt occ n (Nat.lt_of_succ_lt h))
    else stepMid (slab occ ⟨n + 1, h⟩) (nextRow occ ⟨n + 1, h⟩) (accAt occ n (Nat.lt_of_succ_lt h))

theorem accAt_zero (occ : Vec F S385x385x385 .f32) (h : 0 < 48) :
    accAt occ 0 h = stepFirst (slab occ ⟨0, h⟩) (nextRow occ ⟨0, h⟩) := rfl

theorem accAt_succ_last (occ : Vec F S385x385x385 .f32) (n : ℕ) (h : n + 1 < 48) (hl : n + 1 = 47) :
    accAt occ (n + 1) h = stepLast (slab occ ⟨n + 1, h⟩) (nextRow occ ⟨n + 1, h⟩) (accAt occ n (Nat.lt_of_succ_lt h)) := by
  rw [accAt, if_pos hl]

theorem accAt_succ_mid (occ : Vec F S385x385x385 .f32) (n : ℕ) (h : n + 1 < 48) (hl : ¬ n + 1 = 47) :
    accAt occ (n + 1) h = stepMid (slab occ ⟨n + 1, h⟩) (nextRow occ ⟨n + 1, h⟩) (accAt occ n (Nat.lt_of_succ_lt h)) := by
  rw [accAt, if_neg hl]

end Cert.Kernel.Step

end
-- ==== Proof.LibSharedLaunch.lean ====
/-
  A pipelined kernel whose input windows may SHARE an array — one array handed to the kernel through several
  `in_specs`, read at different blocks — inside an @main that runs host operations before the kernel's region and
  after it.

  The launch rule for distinct arrays holds every array at the full share.  When two windows stage one array the
  full share of the buffer behind it is dealt among them, and dealing it is the certificate's business: it says how
  the distinct buffers, each whole at the full share, make the proof data's arrays when the region is entered
  (`hsplit`), and that after the last point the proof data's arrays and the distinct buffers at the exit contents
  `Vx` are the same resource (`hmerge`).  Between the two the host operations after the region run within the
  core's unscoped buffers exactly as the ones before it do, writing no array; they leave every bypassing buffer at
  their composed value from the exit contents.  The kernel keeps no semaphore of its own and its invariant is
  entered from, and returns to, the core's scoped buffers that are no staging buffer, each at some contents.
  Generic in the program, the grid and the element values.
-/
import Idealize.ShloMosaic.Lib.Pipeline.FrameSuffix

noncomputable section

namespace Idealize.ShloMosaic.Pipeline

open Idealize.SL
open Idealize.SL.BI (sProp bigSep bigSep_map bigSep_union bigSep_congr)
open scoped Idealize.SL.BI
open Idealize.SL.BI.BIBase Idealize.SL.BI.Laws Idealize.SL.Sem Idealize.SL.ProofMode
open Idealize.SL.RA
open TcCoe
open Idealize.ShloMosaic.Rounds

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (defs₀ : Defs nD τ sig Val Λ₀) (𝒱₀ : Variants)

local notation "cfg" => cfgs p
local notation "𝔻" => Pipeline.defs (fun q => Cfg.toPCfg (Val := Val) (cfgs q)) defs₀
local notation "𝕍" => Variants.lift 𝒱₀

set_option backward.isDefEq.respectTransparency.types false in
/-- THE RUN AROUND THE REGION when windows may share arrays.  Every weakly fair execution terminates; each window's
    array ends at the proof data's `arrAt … N`, and every unscoped buffer that is no window's array at the value the
    operations after the region compute from the exit contents `Vx`. -/
theorem θ_run_shared_around
    (hinj : Function.Injective (cellOf (nD := nD) (τ := τ) cfgs))
    (hw : WinFacts₀ (cfg).spec)
    (hne : ∀ w : Fin (cfg).W, 0 < ((cfg).spec w).block.numel)
    (harr : ∀ w, ((cfg).spec w).arr.IsWhole) (hstage : ∀ w s, (((cfg).spec w).stage s).IsWhole)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V₀ Vx : Dev nD → Valuation τ sig Val) (opss : List (List (HloOp τ sig Val)))
    (hsub : ∀ ops ∈ opss, ∀ op ∈ ops, op.bufs ⊆ StableHlo.tcRefs τ sig)
    (hfresh : ∀ ops ∈ opss, ∀ op ∈ ops, op.fresh = ∅)
    (hkeep : ∀ ops ∈ opss, ∀ op ∈ ops, ∀ w, Proc.devRef .tc (arrRef (cfg).spec w) ∉ op.writes)
    (hmain : HMainK (Ix := Unit) (Name := ℕ) (U := UR sig nD τ) (Lvl := ℕ) cfgs p defs₀ 𝒱₀ m main
      (fun c b => V₀ c (Proc.devRef .tc b)) (fun _ => chain (opss.map StableHlo.seq)))
    (hsplit : ∀ c, (arrBufs (cfg).spec c (fun b => V₀ c (Proc.devRef .tc b)) : sProp 𝕄) ⊢ (dats p c).arrays ((dats p c).arrAt · 0))
    (hmerge : ∀ c, ((dats p c).arrays ((dats p c).arrAt · (cfg).N) : sProp 𝕄) ⊣⊢ arrBufs (cfg).spec c (fun b => Vx c (Proc.devRef .tc b)))
    (hrest : ∀ c, ∀ b ∈ restRefs sig (cfg).spec, Vx c (Proc.devRef .tc b) = V₀ c (Proc.devRef .tc b))
    (hin : ∀ c, (scopedRest (cfg).spec c : sProp 𝕄) ⊢ (dats p c).Φ 0)
    (hout : ∀ c, (dats p c).Φ (Fin.last (cfg).N) ⊢ (scopedRest (cfg).spec c : sProp 𝕄)) :
    θ_run 𝔻 (onTc main) (s₀ m g) (fun r => ∀ c : Dev nD,
      (∀ w, r.2.mem (((cfg).spec w).arr.view.loc (c.tc : Thread nD τ)) = (dats p c).arrAt w (cfg).N)
      ∧ ∀ b ∈ restRefs sig (cfg).spec, r.2.mem ((c.tc : Thread nD τ).loc b) = StableHlo.after opss.flatten (Vx c) (Proc.devRef .tc b)) := by
  classical
  -- the exit contents' arrays are untouched by the operations after the region
  have harrx (c : Dev nD) : (arrBufs (cfg).spec c (fun b => StableHlo.after opss.flatten (Vx c) (Proc.devRef .tc b)) : sProp 𝕄)
      = arrBufs (cfg).spec c (fun b => Vx c (Proc.devRef .tc b)) := by
    unfold arrBufs
    refine bigSep_congr fun b hb => ?_
    obtain ⟨w, -, rfl⟩ := Finset.mem_image.mp hb
    dsimp only
    rw [StableHlo.after_of_forall_not_mem _ _ fun op hop => ?_]
    obtain ⟨ops, hops, hop⟩ := List.mem_flatten.mp hop
    exact hkeep ops hops op hop w
  have hrestx (c : Dev nD) : (unscopedRest (cfg).spec c (fun b => Vx c (Proc.devRef .tc b)) : sProp 𝕄)
      = unscopedRest (cfg).spec c (fun b => V₀ c (Proc.devRef .tc b)) := by
    unfold unscopedRest
    exact bigSep_congr fun b hb => by dsimp only; rw [hrest c b hb]
  exact θ_run_region_noSem_pf_tail (fun q => (cfgs q).toPCfg (Val := Val)) (fun q => (cfgs q).toPCfg_adm) dats () hinj p hw (PreFacts.none _) emb₁ defs₀ 𝒱₀ m g main
    (fun _ => chain (opss.map StableHlo.seq)) hbody hne harr hstage howed
    (u₀ := initOf (cells cfgs hinj) (launchToks cfgs hinj))
    (hu₀ := Entails.rfl)
    (V := fun c b => V₀ c (Proc.devRef .tc b)) (hmain := hmain)
    (hsplit := hsplit)
    (hpf := fun _ k => k.elim0)
    (X := fun _ => iprop(emp))
    (Y := fun _ => iprop(emp))
    (Z := fun c => unscopedRest (Ix := Unit) (Name := ℕ) (U := UR sig nD τ) (Lvl := ℕ) (cfg).spec c (fun b => V₀ c (Proc.devRef .tc b)))
    (Z' := fun c => unscopedRest (Ix := Unit) (Name := ℕ) (U := UR sig nD τ) (Lvl := ℕ) (cfg).spec c (fun b => StableHlo.after opss.flatten (Vx c) (Proc.devRef .tc b)))
    (hX := fun c => by
      rw [unscopedRestP_none]
      iintro H; isplitr; · iempintro
      iexact H)
    (hin := fun c => by
      refine Entails.trans ?_ (hin c)
      change iprop(emp ∗ prefHeld _ c _ _ ∗ scopedRest (cfg).spec c) ⊢ (scopedRest (cfg).spec c : sProp 𝕄)
      iintro ⟨-, -, H⟩; iexact H)
    (hout := fun c => by
      refine Entails.trans (hout c) ?_
      change (scopedRest (cfg).spec c : sProp 𝕄) ⊢ iprop(emp ∗ scopedRest (cfg).spec c)
      iintro H; isplitr; · iempintro
      iexact H)
    (htail := fun c Q' => by
      have hheld (W : Valuation τ sig Val) : (StableHlo.held (c.tc : Thread nD τ) (ucRefs τ sig) W : sProp 𝕄)
          = iprop(arrBufs (cfg).spec c (fun b => W (Proc.devRef .tc b)) ∗ unscopedRest (cfg).spec c (fun b => W (Proc.devRef .tc b))) := by
        rw [← unscopedBufs_held (Ix := Unit) (Name := ℕ) (U := UR sig nD τ) (Lvl := ℕ) c W]
        exact unscopedBufs_split₀ cfgs p hw.arr_unscoped c _
      change iprop((iprop((dats p c).arrays ((dats p c).arrAt · (cfg).N) ∗ unscopedRest (cfg).spec c (fun b => StableHlo.after opss.flatten (Vx c) (Proc.devRef .tc b))) -∗ Q' ⟨⟩)
          ∗ boundary (c.tc : Thread nD τ) ∗ (dats p c).arrays ((dats p c).arrAt · (cfg).N) ∗ unscopedRest (cfg).spec c (fun b => V₀ c (Proc.devRef .tc b)))
        ⊢ wp frame (wpE 𝔻 𝕍 (c.tc : Thread nD τ) none) Set.univ (chain (opss.map StableHlo.seq)) Q'
      rw [← List.append_nil (opss.map StableHlo.seq)]
      iintro ⟨Hk, Hb, Ha, Hz⟩
      ihave Ha' := (hmerge c).1 $$ Ha
      iapply (wp_seqs_then (fun q => (cfgs q).toPCfg (Val := Val)) defs₀ 𝒱₀ c (ucRefs τ sig) [] opss
        (fun ops ho op h => sub_ucRefs op (hsub ops ho op h)) hfresh (Vx c)) $$ [Hb Ha' Hz]
      · isplitl [Hb]; · iexact Hb
        rw [hheld, hrestx]
        isplitl [Ha']; · iexact Ha'
        iexact Hz
      iintro Hb
      rw [chain_nil, wp_pure, hheld, harrx]
      imodintro
      iapply Hk
      icases Hb with ⟨-, Ha, Hz⟩
      isplitl [Ha]
      · iapply (hmerge c).2; iexact Ha
      iexact Hz)
    (QY := fun c s => ∀ b ∈ restRefs sig (cfg).spec, s.mem ((c.tc : Thread nD τ).loc b) = StableHlo.after opss.flatten (Vx c) (Proc.devRef .tc b))
    (hY := fun c s' => by
      iintro ⟨-, HU, HSI⟩
      unfold unscopedRest
      imodintro
      iapply (pointsTo_read_all (restRefs sig (cfg).spec) (fun b => (c.tc : Thread nD τ).loc b) (fun b => StableHlo.after opss.flatten (Vx c) (Proc.devRef .tc b)) s')
      isplitl [HU] <;> iassumption)
    (hQ := fun s h c => ⟨(h c).1, (h c).2.2⟩)

end Idealize.ShloMosaic.Pipeline

end
-- ==== Proof.KFrame.lean ====
/-
  The kernel's program run to its end.

  Both input windows stage ONE array, the grid: the slab of 8 rows at point t and the single row that follows it.
  The grid's buffer is therefore dealt in two halves of the full share when the region is entered and joined again
  when it is left; nothing writes it.  The one-entry output is carried in its staging buffer from point to point and
  written back once, after the last point; a reshape follows the region.  Between points
  the body keeps nothing of its own.
-/
import proofs.«170673_j44753559224580_1_alg».proof.Proof.KBody
import proofs.«170673_j44753559224580_1_alg».proof.Proof.KStep
import proofs.«170673_j44753559224580_1_alg».proof.Proof.LibSharedLaunch
import Idealize.ShloMosaic.Lib.Pipeline.Frame
import Idealize.ShloMosaic.Lib.Pipeline.FrameSuffix
import Idealize.ShloMosaic.Lib.Pipeline.Value
import Idealize.ShloMosaic.Lib.StableHlo.Run

set_option maxRecDepth 16384

noncomputable section

namespace Cert.Kernel.Fr

open Cert.Kernel Cert.Kernel.Gen Cert.Kernel.Body Cert.Kernel.Step
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them, and the proof data -/

/-- Core `c`'s buffer contents when the region is entered (no host operation runs before it). -/
abbrev V0 (c : Dev nD) : Valuation τ sig (Elt F) := StableHlo.after (List.flatten []) (fun b => m (c, b))
abbrev V (c : Dev nD) (b : Ref sig .tc) : Buf (Elt F) ((c : Thread nD τ).loc b) := V0 m c (Proc.devRef .tc b)

/-- The grid of values: the one argument array, which both input windows stage. -/
abbrev occ (c : Dev nD) : Vec F S385x385x385 .f32 := V m c main_arg0

/-- A grid point as a number below 48. -/
abbrev pt (t : Fin cfg0.N) : Fin 48 := ⟨t.val, lt_of_lt_of_eq t.isLt N_0⟩

/-- The proof data: both input windows' array is the grid, held at one half of the full share each; after the body
    the slab's buffer holds the slab, the next row's buffer the next row, and the output's buffer the running total. -/
def dats (_ : Fin 1) (c : Dev nD) : Dat τ (Elt F) Unit ℕ (UR sig nD τ) ℕ cfg0 c where
  A w := V m c (Pipeline.arrRef spec0 w)
  after w t := match w with
    | ⟨0, _⟩ => slab (occ m c) (pt t)
    | ⟨1, _⟩ => nextRow (occ m c) (pt t)
    | ⟨2, _⟩ => accAt (occ m c) t.val (lt_of_lt_of_eq t.isLt N_0)
  Φ _ := iprop(emp)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = slab (occ m c) (pt t) := by dsimp only [dats]
theorem after_1 (c : Dev nD) (t : Fin cfg0.N) : (dats m 0 c).after 1 t = nextRow (occ m c) (pt t) := by dsimp only [dats]
theorem after_2 (c : Dev nD) (t : Fin cfg0.N) :
    (dats m 0 c).after 2 t = accAt (occ m c) t.val (lt_of_lt_of_eq t.isLt N_0) := by dsimp only [dats]

/-! ## What the body finds in each staging buffer -/

/-- No block of the slab's window overhangs the grid: at every point the fetch moves the whole block. -/
theorem clip0_none : ∀ (t : Fin cfg0.N) (a : Fin 3), win0_0.clip (grid0.coords t) a = none :=
  (by decide +kernel : ∀ (t : Fin grid0.N) (a : Fin 3), win0_0.clip (grid0.coords t) a = none)
/-- The slab's block index at point `t` is `t` on the rows and 0 elsewhere; the next row's is `8 t + 8`. -/
theorem index0 : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)
theorem index1 : ∀ t : Fin cfg0.N, win0_1.index t 0 = 8 * t.val + 8 ∧ win0_1.index t 1 = 0 ∧ win0_1.index t 2 = 0 :=
  (by decide +kernel : ∀ t : Fin grid0.N, win0_1.index t 0 = 8 * t.val + 8 ∧ win0_1.index t 1 = 0 ∧ win0_1.index t 2 = 0)

/-- The slab's buffer, just fetched, holds rows 8 t … 8 t + 7 of the grid, whatever it held before. -/
theorem before_0 (c : Dev nD) (t : Fin cfg0.N) (d) : (dats m 0 c).before 0 t d = slab (occ m c) (pt t) := by
  rw [Dat.before_fetched _ 0 t (fetch0_0 t)]
  funext j
  have hm : win0_0.moved (grid0.coords t) j = true :=
    (win0_0.moved_iff _ j).mpr fun a => by have := (j a).isLt; unfold Window.xsize; rw [clip0_none t a]; exact this
  unfold Dat.fetched Window.fill
  rw [dif_pos hm]
  unfold Dat.blockOf
  rw [A_eq]
  show V m c main_arg0 ((win0_0.blk t).view.emb _) = occ m c _
  refine congrArg (V m c main_arg0) (funext fun a => Fin.ext ?_)
  obtain ⟨h0, h1, h2⟩ := index0 t
  match a with
  | ⟨0, _⟩ => show win0_0.index t 0 * 8 + 1 * (j 0).val = 8 * t.val + (j 0).val; rw [h0]; omega
  | ⟨1, _⟩ => show win0_0.index t 1 * 385 + 1 * (j 1).val = (j 1).val; rw [h1]; omega
  | ⟨2, _⟩ => show win0_0.index t 2 * 385 + 1 * (j 2).val = (j 2).val; rw [h2]; omega

/-- The next row's buffer, just fetched, holds row 8 t + 8 of the grid. -/
theorem before_1 (c : Dev nD) (t : Fin cfg0.N) (d) : (dats m 0 c).before 1 t d = nextRow (occ m c) (pt t) := by
  rw [Dat.before_fetched _ 1 t (fetch0_1 t)]
  funext j
  have hm : win0_1.moved (grid0.coords t) j = true :=
    (win0_1.moved_iff _ j).mpr fun a => (j a).isLt
  unfold Dat.fetched Window.fill
  rw [dif_pos hm]
  unfold Dat.blockOf
  rw [A_eq]
  show V m c main_arg0 ((win0_1.blk t).view.emb _) = occ m c _
  refine congrArg (V m c main_arg0) (funext fun a => Fin.ext ?_)
  obtain ⟨h0, h1, h2⟩ := index1 t
  have hj0 : (j 0).val = 0 := by have : (j 0).val < 1 := (j 0).isLt; omega
  match a with
  | ⟨0, _⟩ => show win0_1.index t 0 * 1 + 1 * (j 0).val = 8 * t.val + 8; rw [h0, hj0]; omega
  | ⟨1, _⟩ => show win0_1.index t 1 * 385 + 1 * (j 1).val = (j 1).val; rw [h1]; omega
  | ⟨2, _⟩ => show win0_1.index t 2 * 385 + 1 * (j 2).val = (j 2).val; rw [h2]; omega

/-- At the first point the output's buffer holds anything; -/
theorem before_2_first (c : Dev nD) (t : Fin cfg0.N) (h0 : t.val = 0) (d) : (dats m 0 c).before 2 t d = d :=
  Dat.before_out_reset _ 2 rfl t (.inl h0) d
/-- at a later point, what the body left at the point before: the output is written back only after the last point. -/
theorem before_2_later (c : Dev nD) (t : Fin cfg0.N) (h0 : t.val ≠ 0) (d) :
    (dats m 0 c).before 2 t d = accAt (occ m c) (t.val - 1) (lt_of_le_of_lt (Nat.sub_le _ _) (lt_of_lt_of_eq t.isLt N_0)) := by
  have hN : t.val < 48 := lt_of_lt_of_eq t.isLt N_0
  rw [Dat.before_out_kept _ 2 rfl t h0 (Bool.eq_false_iff.mpr fun h => by have := (flush0_2 _).mp h; dsimp only at this; omega)
    (fun _ => rfl) (fun _ _ => rfl)]
  dsimp only [dats]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns: the slab's buffer stated on the part its transfers move (all of it). -/
def bodyPost (c : Dev nD) (t : Fin cfg0.N) : sProp 𝕄 :=
  iprop((dats m 0 c).Φ t.succ ∗ (dats m 0 c).owesAt () t.succ
    ∗ (∃ d, owns (c : Thread nD τ) (st0_0 t) fullShare ((cfg0.win 0).fill (cfg0.grid.coords t) d ((cfg0.win 0).cut (cfg0.grid.coords t) ((dats m 0 c).after 0 t))))
    ∗ owns (c : Thread nD τ) (st0_1 t) fullShare ((dats m 0 c).after 1 t)
    ∗ owns (c : Thread nD τ) (st0_2 t) fullShare ((dats m 0 c).after 2 t))

set_option maxHeartbeats 800000 in
/-- The body at any point: the two input buffers hold the slab and the next row; the point is the first, a middle
    one or the last, and the matching run applies, the output's buffer entering at what the point before left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).Φ t.succ = (dats m 0 c).Φ t.castSucc from rfl,
    show (dats m 0 c).owesAt () t.succ = (dats m 0 c).owesAt () t.castSucc from rfl,
    after_0, after_1, after_2]
  have hN : t.val < 48 := lt_of_lt_of_eq t.isLt N_0
  by_cases h0 : t.val = 0
  · have hc0 : condFirst (grid0.coords t) := (hcondFirst t).mpr h0
    have hc1 : ¬condLast (grid0.coords t) := fun h => by have := (hcondLast t).mp h; omega
    have hacc : accAt (occ m c) t.val (lt_of_lt_of_eq t.isLt N_0)
        = outFirst c (grid0.coords t) _ (hstage0_0 ((cfg0.slots t 0).cast nbuf0_0)) _ (hstage0_1 ((cfg0.slots t 1).cast nbuf0_1)) _ (hstage0_2 ((cfg0.slots t 2).cast nbuf0_2)) hc0 hc1 (slab (occ m c) (pt t)) (nextRow (occ m c) (pt t)) := by
      rw [outFirst_eq]
      obtain ⟨n, hn⟩ := t
      obtain rfl : n = 0 := h0
      rfl
    rw [hacc]
    unfold outFirst
    iintro ⟨HΦ, Ho, ⟨%d0, H0⟩, ⟨%d1, H1⟩, ⟨%d2, H2⟩⟩
    iapply ((runFirst c (grid0.coords t) _ _ _ _ _ _ hc0 hc1 (slab (occ m c) (pt t)) (nextRow (occ m c) (pt t))).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexists (slab (occ m c) (pt t)); rw [Window.fill_cut]; iexact H0
    isplitl [H1]; · iexact H1
    unfold owns; iexists _; isplitr
    swap; · iexact H2
    ipureintro; exact View.read_writes_of_cover _ _ _ _ _ (coverFirst c _ _ _ _ _ _ _ _ _ _ _)
  · simp only [before_2_later m c t h0]
    by_cases h1 : t.val = 47
    · have hc0 : ¬condFirst (grid0.coords t) := fun h => h0 ((hcondFirst t).mp h)
      have hc1 : condLast (grid0.coords t) := (hcondLast t).mpr h1
      have hacc : accAt (occ m c) t.val (lt_of_lt_of_eq t.isLt N_0)
          = outLast c (grid0.coords t) _ (hstage0_0 ((cfg0.slots t 0).cast nbuf0_0)) _ (hstage0_1 ((cfg0.slots t 1).cast nbuf0_1)) _ (hstage0_2 ((cfg0.slots t 2).cast nbuf0_2)) hc0 hc1 (slab (occ m c) (pt t)) (nextRow (occ m c) (pt t))
              (accAt (occ m c) (t.val - 1) (lt_of_le_of_lt (Nat.sub_le _ _) (lt_of_lt_of_eq t.isLt N_0))) := by
        rw [outLast_eq]
        obtain ⟨n, hn⟩ := t
        cases n with
        | zero => exact absurd rfl h0
        | succ n => exact accAt_succ_last _ n _ h1
      rw [hacc]
      unfold outLast
      iintro ⟨HΦ, Ho, ⟨%d0, H0⟩, ⟨%d1, H1⟩, ⟨%d2, H2⟩⟩
      iapply ((runLast c (grid0.coords t) _ _ _ _ _ _ hc0 hc1 (slab (occ m c) (pt t)) (nextRow (occ m c) (pt t)) _).2 Set.univ _)
      isplitl [H0]; · iexact H0
      isplitl [H1]; · iexact H1
      isplitl [H2]; · iexact H2
      iintro ⟨H0, H1, ⟨%e2, H2⟩⟩
      isplitl [HΦ]; · iexact HΦ
      isplitl [Ho]; · iexact Ho
      isplitl [H0]; · iexists (slab (occ m c) (pt t)); rw [Window.fill_cut]; iexact H0
      isplitl [H1]; · iexact H1
      unfold owns; iexists _; isplitr
      swap; · iexact H2
      ipureintro; exact View.read_writes_of_cover _ _ _ _ _ (coverLast c _ _ _ _ _ _ _ _ _ _ _ _)
    · have hc0 : ¬condFirst (grid0.coords t) := fun h => h0 ((hcondFirst t).mp h)
      have hc1 : ¬condLast (grid0.coords t) := fun h => h1 ((hcondLast t).mp h)
      have hacc : accAt (occ m c) t.val (lt_of_lt_of_eq t.isLt N_0)
          = outMid c (grid0.coords t) _ (hstage0_0 ((cfg0.slots t 0).cast nbuf0_0)) _ (hstage0_1 ((cfg0.slots t 1).cast nbuf0_1)) _ (hstage0_2 ((cfg0.slots t 2).cast nbuf0_2)) hc0 hc1 (slab (occ m c) (pt t)) (nextRow (occ m c) (pt t))
              (accAt (occ m c) (t.val - 1) (lt_of_le_of_lt (Nat.sub_le _ _) (lt_of_lt_of_eq t.isLt N_0))) := by
        rw [outMid_eq]
        obtain ⟨n, hn⟩ := t
        cases n with
        | zero => exact absurd rfl h0
        | succ n => exact accAt_succ_mid _ n _ h1
      rw [hacc]
      unfold outMid
      iintro ⟨HΦ, Ho, ⟨%d0, H0⟩, ⟨%d1, H1⟩, ⟨%d2, H2⟩⟩
      iapply ((runMid c (grid0.coords t) _ _ _ _ _ _ hc0 hc1 (slab (occ m c) (pt t)) (nextRow (occ m c) (pt t)) _).2 Set.univ _)
      isplitl [H0]; · iexact H0
      isplitl [H1]; · iexact H1
      isplitl [H2]; · iexact H2
      iintro ⟨H0, H1, ⟨%e2, H2⟩⟩
      isplitl [HΦ]; · iexact HΦ
      isplitl [Ho]; · iexact Ho
      isplitl [H0]; · iexists (slab (occ m c) (pt t)); rw [Window.fill_cut]; iexact H0
      isplitl [H1]; · iexact H1
      unfold owns; iexists _; isplitr
      swap; · iexact H2
      ipureintro; exact View.read_writes_of_cover _ _ _ _ _ (coverMid c _ _ _ _ _ _ _ _ _ _ _ _)

/-- The library's body obligation (the slab's window stated on the moved part), at every point. -/
theorem body_obligation (c : Dev nD) : BodyObligationLoose (dats (F := F) m 0 c) (defs₀ (F := F)) Variants.none () Set.univ := fun t => by
  rw [bigSep_W0, bigSep_W0]
  exact sound_body m c t

/-! ## The host operation after the region, and the arrays' shares -/

theorem hostOps1_fresh : (hostOps1 : List (HloOp τ sig (Elt F))).Forall fun op => op.fresh = ∅ := by
  simp only [List.Forall]; repeat' constructor

/-- @main is the region followed by the reshape of its result. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

theorem sfx_sub : ∀ ops ∈ ([hostOps1] : List (List (HloOp τ sig (Elt F)))), ∀ op ∈ ops, op.bufs ⊆ StableHlo.tcRefs τ sig := by
  intro ops hops op hop
  simp only [List.mem_cons, List.mem_nil_iff, or_false] at hops
  rcases hops with rfl
  exact (List.forall_iff_forall_mem.mp hostOps1_sub) op hop
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- The reshape writes its own result only, which is no array of the region. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w; fin_cases w <;> simp only [StableHlo.reshape_writes, Finset.mem_singleton] <;> exact StableHlo.devRef_ne_of_ne (by decide)

/-- The contents at the region's exit: the output array at what the write-backs left, every other buffer as found. -/
def Vx (c : Dev nD) : Valuation τ sig (Elt F) := fun b =>
  if h : Proc.devRef .tc main_v0 = b then
    cast (congrArg (fun b' : DevRef τ sig => b'.ty.Contents (Elt F)) h) ((dats m 0 c).arrAt 2 cfg0.N)
  else V0 m c b
theorem Vx_v0 (c : Dev nD) : Vx m c (Proc.devRef .tc main_v0) = (dats m 0 c).arrAt 2 cfg0.N := by
  unfold Vx; rw [dif_pos rfl]; rfl
theorem Vx_of_ne (c : Dev nD) (b : Ref sig .tc) (hb : main_v0 ≠ b) : Vx m c (Proc.devRef .tc b) = V0 m c (Proc.devRef .tc b) := by
  unfold Vx; rw [dif_neg]; intro e; exact hb (Proc.devRef_injective _ e)

/-- The two distinct buffers behind the three windows' arrays. -/
theorem arrBufs_eq (c : Dev nD) (W : (b : Ref sig .tc) → Buf (Elt F) ((c.tc : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_v0) ↦{fullShare} W main_v0)) := by
  unfold Pipeline.arrBufs
  exact bigSep_eq_bigSepL_of_eq [main_arg0, main_v0] (by decide) (by decide) _

/-- The windows' arrays: the grid at the two halves of the full share, the output array outright. -/
theorem arrays_eq (c : Dev nD) (Fw : (w : Fin cfg0.W) → Buf (Elt F) ((cfg0.win w).arr.view.loc (c.tc : Thread nD τ))) :
    ((dats m 0 c).arrays Fw : sProp 𝕄)
      = iprop((((c : Thread nD τ).loc main_arg0) ↦{fullShare.left} Fw 0) ∗ (((c : Thread nD τ).loc main_arg0) ↦{fullShare.right} Fw 1)
          ∗ (((c : Thread nD τ).loc main_v0) ↦{fullShare} Fw 2)) := by
  unfold Dat.arrays
  rw [bigSep_W0, (arr_whole0 0).set_eq_univ, (arr_whole0 2).set_eq_univ]
  rfl

/-- Entering the region: the grid's buffer, whole at the full share, is dealt in halves to the two windows that stage it. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq, arrays_eq]
  iintro ⟨Ha, Hv⟩
  ihave Ha2 := (pointsTo_share (PosShare.mem_left_op_right fullShare)).1 $$ Ha
  icases Ha2 with ⟨Hl, Hr⟩
  isplitl [Hl]; · iexact Hl
  isplitl [Hr]; · iexact Hr
  iexact Hv

/-- Leaving it: the two halves, still at the grid's contents, are the whole again; the output array holds what the
    write-backs left. -/
theorem hmerge (c : Dev nD) :
    ((dats m 0 c).arrays ((dats m 0 c).arrAt · cfg0.N) : sProp 𝕄)
      ⊣⊢ Pipeline.arrBufs (Ix := Unit) (Name := ℕ) (U := UR sig nD τ) (Lvl := ℕ) spec0 c (fun b => Vx m c (Proc.devRef .tc b)) := by
  rw [arrBufs_eq, arrays_eq, (dats m 0 c).arrAt_in 0 rfl, (dats m 0 c).arrAt_in 1 rfl, Vx_v0, Vx_of_ne m c main_arg0 (by decide)]
  constructor
  · iintro ⟨Hl, Hr, Hv⟩
    isplitl [Hl Hr]
    · iapply (pointsTo_share (PosShare.mem_left_op_right fullShare)).2
      isplitl [Hl]; · iexact Hl
      iexact Hr
    iexact Hv
  · iintro ⟨Ha, Hv⟩
    ihave Ha2 := (pointsTo_share (PosShare.mem_left_op_right fullShare)).1 $$ Ha
    icases Ha2 with ⟨Hl, Hr⟩
    isplitl [Hl]; · iexact Hl
    isplitl [Hr]; · iexact Hr
    iexact Hv

/-- The buffers that bypass the region are as found at its exit. -/
theorem hrest (c : Dev nD) : ∀ b ∈ Pipeline.restRefs sig spec0, Vx m c (Proc.devRef .tc b) = V0 m c (Proc.devRef .tc b) := by
  intro b hb
  refine Vx_of_ne m c b fun e => ?_
  subst e
  revert hb
  decide

/-! ## The run -/

set_option backward.isDefEq.respectTransparency.types false in
/-- Every weakly fair execution of @main terminates; the windows' arrays end at what the proof data computes and the
    reshaped result at the reshape of the exit contents. -/
theorem run_main : θ_run defs (onTc (τ := τ) (main (F := F))) (s₀ m ρ) (fun r => ∀ c : Dev nD,
      (∀ w, r.2.mem (((cfg0).spec w).arr.view.loc (c.tc : Thread nD τ)) = (dats m 0 c).arrAt w cfg0.N)
      ∧ ∀ b ∈ Pipeline.restRefs sig (cfg0).spec, r.2.mem ((c.tc : Thread nD τ).loc b)
          = StableHlo.after ([hostOps1] : List (List (HloOp τ sig (Elt F)))).flatten (Vx m c) (Proc.devRef .tc b)) :=
  Pipeline.θ_run_shared_around cfgs (dats m) (0 : Fin 1) defs₀ Variants.none cellOf_inj winFacts₀0 block_pos0 arr_whole0 stage_whole0 m ρ main
    (hbody := body_obligation m) (howed := fun _ _ => rfl) (V₀ := V0 m) (Vx := Vx m) (opss := [hostOps1])
    (hsub := sfx_sub) (hfresh := sfx_fresh) (hkeep := sfx_keeps) (hmain := hmain m Variants.none)
    (hsplit := hsplit m) (hmerge := hmerge m) (hrest := hrest m)
    (hin := fun c => by rw [scopedRest0_eq]; exact .rfl)
    (hout := fun c => by rw [scopedRest0_eq]; exact .rfl)

/-- THE FRAME: the argument array ends as it began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).1 0).trans ((dats m 0 c).arrAt_in 0 rfl _)) (run_main m ρ)

end Cert.Kernel.Fr

end
-- ==== Proof.KIBody.lean ====
/-
  The kernel's body on whole staging memrefs, at a first, a middle and the last grid point.

  The body branches twice on the grid coordinate: where it is 0 the one-entry output is reset to zero before
  anything is added; where it is 47 the last row's own column and lane terms are added first.  In each of the
  three combinations the grid meets, the body loads the slab and the row that follows it, and stores into the output
  the point's total over what the output held.  Each run is stated with the list of pieces its stores leave in the
  output's memref, found when the run hands the memref back; read back, the pieces are the payload terms.
-/
import proofs.«170673_j44753559224580_1_alg».proof.Proof.Gen.KernelIdeal.Launch
import proofs.«170673_j44753559224580_1_alg».proof.Proof.Gen.KernelIdeal.Skeleton
import proofs.«170673_j44753559224580_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The body's first branch is taken where the grid coordinate is 0 (the output is reset there), -/
abbrev condFirst (i : grid0.Coords) : Prop :=
  (Scalar.cmpi .ne (Scalar.extui (Scalar.cmpi .eq (BitVec.ofNat 32 (i 0).val) 0#32)) 0#32) = 1#1
/-- and its second where it is 47 (the last row's own terms are added there). -/
abbrev condLast (i : grid0.Coords) : Prop :=
  (Scalar.cmpi .ne (Scalar.extui (Scalar.cmpi .eq (BitVec.ofNat 32 (i 0).val) 47#32)) 0#32) = 1#1

theorem hcondFirst : ∀ t : Fin cfg0.N, condFirst (grid0.coords t) ↔ t.val = 0 :=
  (by decide +kernel : ∀ t : Fin grid0.N, condFirst (grid0.coords t) ↔ t.val = 0)
theorem hcondLast : ∀ t : Fin cfg0.N, condLast (grid0.coords t) ↔ t.val = 47 :=
  (by decide +kernel : ∀ t : Fin grid0.N, condLast (grid0.coords t) ↔ t.val = 47)

set_option maxHeartbeats 1000000 in
/-- The body at the first point: on whole staging memrefs, the slab's at x0, the next row's at x1, the output's at anything, it runs to the continuation with the two inputs as they were and the output's memref written with the pieces found. -/
noncomputable def runFirst (c : Dev nD) (i : grid0.Coords) (arg1 : Memref sig .tc .vmem S8x385x385 .f32) (harg1 : arg1.IsWhole)
    (arg2 : Memref sig .tc .vmem S1x385x385 .f32) (harg2 : arg2.IsWhole) (arg3 : Memref sig .tc .vmem S1x1 .f32) (harg3 : arg3.IsWhole)
    (hc0 : condFirst i) (hc1 : ¬condLast i)
    (x0 : Vec F S8x385x385 .f32) (x1 : Vec F S1x385x385 .f32) :
    { L : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L)) -∗ K ⟨⟩))
          ⊢ wp frame (wpE (defs₀ (F := F)) Variants.none c none) E (cc0__kernel i arg1 harg1 arg2 harg2 arg3 harg3) K } := by
  refine ⟨?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact H2

set_option maxHeartbeats 1000000 in
/-- The body at a middle point: the output's memref enters at xo. -/
noncomputable def runMid (c : Dev nD) (i : grid0.Coords) (arg1 : Memref sig .tc .vmem S8x385x385 .f32) (harg1 : arg1.IsWhole)
    (arg2 : Memref sig .tc .vmem S1x385x385 .f32) (harg2 : arg2.IsWhole) (arg3 : Memref sig .tc .vmem S1x1 .f32) (harg3 : arg3.IsWhole)
    (hc0 : ¬condFirst i) (hc1 : ¬condLast i)
    (x0 : Vec F S8x385x385 .f32) (x1 : Vec F S1x385x385 .f32) (xo : Vec F S1x1 .f32) :
    { L : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare xo
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L)) -∗ K ⟨⟩))
          ⊢ wp frame (wpE (defs₀ (F := F)) Variants.none c none) E (cc0__kernel i arg1 harg1 arg2 harg2 arg3 harg3) K } := by
  refine ⟨?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact H2

set_option maxHeartbeats 1000000 in
/-- The body at the last point: the output's memref enters at xo; both of its updates are among the pieces. -/
noncomputable def runLast (c : Dev nD) (i : grid0.Coords) (arg1 : Memref sig .tc .vmem S8x385x385 .f32) (harg1 : arg1.IsWhole)
    (arg2 : Memref sig .tc .vmem S1x385x385 .f32) (harg2 : arg2.IsWhole) (arg3 : Memref sig .tc .vmem S1x1 .f32) (harg3 : arg3.IsWhole)
    (hc0 : ¬condFirst i) (hc1 : condLast i)
    (x0 : Vec F S8x385x385 .f32) (x1 : Vec F S1x385x385 .f32) (xo : Vec F S1x1 .f32) :
    { L : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare xo
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L)) -∗ K ⟨⟩))
          ⊢ wp frame (wpE (defs₀ (F := F)) Variants.none c none) E (cc0__kernel i arg1 harg1 arg2 harg2 arg3 harg3) K } := by
  refine ⟨?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact H2

/-- One memref of the output's shape, through which the pieces are read back (the choice does not matter). -/
abbrev VO : View sig .tc .vmem S1x1 .f32 := (Memref.whole cc0_stg2_0 : Memref sig .tc .vmem S1x1 .f32).view

/-- The pieces the first point's run found cover the output's one entry. -/
theorem coverFirst (c : Dev nD) (i : grid0.Coords) (arg1 : Memref sig .tc .vmem S8x385x385 .f32) (harg1 : arg1.IsWhole)
    (arg2 : Memref sig .tc .vmem S1x385x385 .f32) (harg2 : arg2.IsWhole) (arg3 : Memref sig .tc .vmem S1x1 .f32) (harg3 : arg3.IsWhole)
    (hc0 : condFirst i) (hc1 : ¬condLast i) (x0 : Vec F S8x385x385 .f32) (x1 : Vec F S1x385x385 .f32) (y : S1x1.Idx) :
    ∃ pc ∈ (runFirst c i arg1 harg1 arg2 harg2 arg3 harg3 hc0 hc1 x0 x1).1, y ∈ pc.1.set :=
  View.cover_of_tiledL (runFirst c i arg1 harg1 arg2 harg2 arg3 harg3 hc0 hc1 x0 x1).1 S1x1.size (by sl_kernel_rfl) y

/-- What the first point leaves in the output's staging buffer: its pieces read back. -/
def outFirst (c : Dev nD) (i : grid0.Coords) (arg1 : Memref sig .tc .vmem S8x385x385 .f32) (harg1 : arg1.IsWhole)
    (arg2 : Memref sig .tc .vmem S1x385x385 .f32) (harg2 : arg2.IsWhole) (arg3 : Memref sig .tc .vmem S1x1 .f32) (harg3 : arg3.IsWhole)
    (hc0 : condFirst i) (hc1 : ¬condLast i) (x0 : Vec F S8x385x385 .f32) (x1 : Vec F S1x385x385 .f32) : Vec F S1x1 .f32 :=
  VO.read (Elt F) (VO.writes (Elt F) VO.junk (runFirst c i arg1 harg1 arg2 harg2 arg3 harg3 hc0 hc1 x0 x1).1)

/-- It is the point's total added to what the output held after the reset. -/
theorem outFirst_eq (c : Dev nD) (i : grid0.Coords) (arg1 : Memref sig .tc .vmem S8x385x385 .f32) (harg1 : arg1.IsWhole)
    (arg2 : Memref sig .tc .vmem S1x385x385 .f32) (harg2 : arg2.IsWhole) (arg3 : Memref sig .tc .vmem S1x1 .f32) (harg3 : arg3.IsWhole)
    (hc0 : condFirst i) (hc1 : ¬condLast i) (x0 : Vec F S8x385x385 .f32) (x1 : Vec F S1x385x385 .f32) :
    outFirst c i arg1 harg1 arg2 harg2 arg3 harg3 hc0 hc1 x0 x1 = k0_pay2 (k0_pay5 x0) (k0_pay6 x0 x1) (k0_pay7 x0) (k0_pay8 x0) (k0_pay3 (F := F)) := by
  have hz2 : (![0, 0] : Fin 2 → Nat) = fun _ => 0 := funext fun a => by fin_cases a <;> rfl
  have hz3 : (![0, 0, 0] : Fin 3 → Nat) = fun _ => 0 := funext fun a => by fin_cases a <;> rfl
  unfold outFirst
  rw [View.read_writes_eq_canon _ _ _ (coverFirst c i arg1 harg1 arg2 harg2 arg3 harg3 hc0 hc1 x0 x1)]
  unfold runFirst
  dsimp only
  sl_unfold_words
  rw [View.canon_cons_unit_zero (S := S1x1) hz2]
  simp only [View.readAt_eq_ld, harg1.read_unread, harg2.read_unread, harg3.read_unread,
    View.ld_unit_zero (S := S8x385x385) hz3, View.ld_unit_zero (S := S1x385x385) hz3, View.ld_unit_zero (S := S1x1) hz2,
    View.readCov_unit_zero (S := S1x1) _ hz2]

/-- The pieces the middle point's run found cover the output's one entry. -/
theorem coverMid (c : Dev nD) (i : grid0.Coords) (arg1 : Memref sig .tc .vmem S8x385x385 .f32) (harg1 : arg1.IsWhole)
    (arg2 : Memref sig .tc .vmem S1x385x385 .f32) (harg2 : arg2.IsWhole) (arg3 : Memref sig .tc .vmem S1x1 .f32) (harg3 : arg3.IsWhole)
    (hc0 : ¬condFirst i) (hc1 : ¬condLast i) (x0 : Vec F S8x385x385 .f32) (x1 : Vec F S1x385x385 .f32) (xo : Vec F S1x1 .f32) (y : S1x1.Idx) :
    ∃ pc ∈ (runMid c i arg1 harg1 arg2 harg2 arg3 harg3 hc0 hc1 x0 x1 xo).1, y ∈ pc.1.set :=
  View.cover_of_tiledL (runMid c i arg1 harg1 arg2 harg2 arg3 harg3 hc0 hc1 x0 x1 xo).1 S1x1.size (by sl_kernel_rfl) y

/-- What the middle point leaves in the output's staging buffer: its pieces read back. -/
def outMid (c : Dev nD) (i : grid0.Coords) (arg1 : Memref sig .tc .vmem S8x385x385 .f32) (harg1 : arg1.IsWhole)
    (arg2 : Memref sig .tc .vmem S1x385x385 .f32) (harg2 : arg2.IsWhole) (arg3 : Memref sig .tc .vmem S1x1 .f32) (harg3 : arg3.IsWhole)
    (hc0 : ¬condFirst i) (hc1 : ¬condLast i) (x0 : Vec F S8x385x385 .f32) (x1 : Vec F S1x385x385 .f32) (xo : Vec F S1x1 .f32) : Vec F S1x1 .f32 :=
  VO.read (Elt F) (VO.writes (Elt F) VO.junk (runMid c i arg1 harg1 arg2 harg2 arg3 harg3 hc0 hc1 x0 x1 xo).1)

/-- It is the point's total added to what the output held. -/
theorem outMid_eq (c : Dev nD) (i : grid0.Coords) (arg1 : Memref sig .tc .vmem S8x385x385 .f32) (harg1 : arg1.IsWhole)
    (arg2 : Memref sig .tc .vmem S1x385x385 .f32) (harg2 : arg2.IsWhole) (arg3 : Memref sig .tc .vmem S1x1 .f32) (harg3 : arg3.IsWhole)
    (hc0 : ¬condFirst i) (hc1 : ¬condLast i) (x0 : Vec F S8x385x385 .f32) (x1 : Vec F S1x385x385 .f32) (xo : Vec F S1x1 .f32) :
    outMid c i arg1 harg1 arg2 harg2 arg3 harg3 hc0 hc1 x0 x1 xo = k0_pay2 (k0_pay5 x0) (k0_pay6 x0 x1) (k0_pay7 x0) (k0_pay8 x0) xo := by
  have hz2 : (![0, 0] : Fin 2 → Nat) = fun _ => 0 := funext fun a => by fin_cases a <;> rfl
  have hz3 : (![0, 0, 0] : Fin 3 → Nat) = fun _ => 0 := funext fun a => by fin_cases a <;> rfl
  unfold outMid
  rw [View.read_writes_eq_canon _ _ _ (coverMid c i arg1 harg1 arg2 harg2 arg3 harg3 hc0 hc1 x0 x1 xo)]
  unfold runMid
  dsimp only
  sl_unfold_words
  rw [View.canon_unit_zero (S := S1x1) hz2]
  simp only [View.readAt_eq_ld, harg1.read_unread, harg2.read_unread, harg3.read_unread,
    View.ld_unit_zero (S := S8x385x385) hz3, View.ld_unit_zero (S := S1x385x385) hz3, View.ld_unit_zero (S := S1x1) hz2,
    View.readCov_unit_zero (S := S1x1) _ hz2]

/-- The pieces the last point's run found cover the output's one entry. -/
theorem coverLast (c : Dev nD) (i : grid0.Coords) (arg1 : Memref sig .tc .vmem S8x385x385 .f32) (harg1 : arg1.IsWhole)
    (arg2 : Memref sig .tc .vmem S1x385x385 .f32) (harg2 : arg2.IsWhole) (arg3 : Memref sig .tc .vmem S1x1 .f32) (harg3 : arg3.IsWhole)
    (hc0 : ¬condFirst i) (hc1 : condLast i) (x0 : Vec F S8x385x385 .f32) (x1 : Vec F S1x385x385 .f32) (xo : Vec F S1x1 .f32) (y : S1x1.Idx) :
    ∃ pc ∈ (runLast c i arg1 harg1 arg2 harg2 arg3 harg3 hc0 hc1 x0 x1 xo).1, y ∈ pc.1.set :=
  View.cover_of_tiledL (runLast c i arg1 harg1 arg2 harg2 arg3 harg3 hc0 hc1 x0 x1 xo).1 S1x1.size (by sl_kernel_rfl) y

/-- What the last point leaves in the output's staging buffer: its pieces read back. -/
def outLast (c : Dev nD) (i : grid0.Coords) (arg1 : Memref sig .tc .vmem S8x385x385 .f32) (harg1 : arg1.IsWhole)
    (arg2 : Memref sig .tc .vmem S1x385x385 .f32) (harg2 : arg2.IsWhole) (arg3 : Memref sig .tc .vmem S1x1 .f32) (harg3 : arg3.IsWhole)
    (hc0 : ¬condFirst i) (hc1 : condLast i) (x0 : Vec F S8x385x385 .f32) (x1 : Vec F S1x385x385 .f32) (xo : Vec F S1x1 .f32) : Vec F S1x1 .f32 :=
  VO.read (Elt F) (VO.writes (Elt F) VO.junk (runLast c i arg1 harg1 arg2 harg2 arg3 harg3 hc0 hc1 x0 x1 xo).1)

/-- It is the point's total added to what the output held with the last row's terms added. -/
theorem outLast_eq (c : Dev nD) (i : grid0.Coords) (arg1 : Memref sig .tc .vmem S8x385x385 .f32) (harg1 : arg1.IsWhole)
    (arg2 : Memref sig .tc .vmem S1x385x385 .f32) (harg2 : arg2.IsWhole) (arg3 : Memref sig .tc .vmem S1x1 .f32) (harg3 : arg3.IsWhole)
    (hc0 : ¬condFirst i) (hc1 : condLast i) (x0 : Vec F S8x385x385 .f32) (x1 : Vec F S1x385x385 .f32) (xo : Vec F S1x1 .f32) :
    outLast c i arg1 harg1 arg2 harg2 arg3 harg3 hc0 hc1 x0 x1 xo = k0_pay2 (k0_pay5 x0) (k0_pay6 x0 x1) (k0_pay7 x0) (k0_pay8 x0) (k0_pay1 (k0_pay4 x1) xo) := by
  have hz2 : (![0, 0] : Fin 2 → Nat) = fun _ => 0 := funext fun a => by fin_cases a <;> rfl
  have hz3 : (![0, 0, 0] : Fin 3 → Nat) = fun _ => 0 := funext fun a => by fin_cases a <;> rfl
  unfold outLast
  rw [View.read_writes_eq_canon _ _ _ (coverLast c i arg1 harg1 arg2 harg2 arg3 harg3 hc0 hc1 x0 x1 xo)]
  unfold runLast
  dsimp only
  sl_unfold_words
  rw [View.canon_cons_unit_zero (S := S1x1) hz2]
  simp only [View.readAt_eq_ld, harg1.read_unread, harg2.read_unread, harg3.read_unread,
    View.ld_unit_zero (S := S8x385x385) hz3, View.ld_unit_zero (S := S1x385x385) hz3, View.ld_unit_zero (S := S1x1) hz2,
    View.readCov_unit_zero (S := S1x1) _ hz2]

end Cert.KernelIdeal.Body

end
-- ==== Proof.KIStep.lean ====
/-
  The kernel's accumulation, point by point, as pure values (at any float instance).

  At grid point `t` the body sees the slab of rows 8 t … 8 t + 7 of the grid and the row 8 t + 8 that follows it.
  What it leaves in the [1, 1] output is the point's total added to what the output held before: zero at the first
  point (the reset), the previous point's value otherwise, with the last row's own terms added first at the last
  point (47).  `accAt occ n` is the output after point `n`, by recursion on the point.
-/
import proofs.«170673_j44753559224580_1_alg».proof.Proof.Gen.KernelIdeal.Skeleton
import Idealize.ShloMosaic.Lib.ValueIdx

noncomputable section

namespace Cert.KernelIdeal.Step

open Cert.KernelIdeal Cert.KernelIdeal.Gen Idealize.ShloMosaic Idealize.ShloMosaic.ValueIdx

variable {F : FTy → Type} [FloatOps F]

/-- The point's own total over what the output held (`prev`). -/
def addPoint (x0 : Vec F S8x385x385 .f32) (x1 : Vec F S1x385x385 .f32) (prev : Vec F S1x1 .f32) : FVec F S1x1 .f32 :=
  k0_pay2 (k0_pay5 x0) (k0_pay6 x0 x1) (k0_pay7 x0) (k0_pay8 x0) prev

/-- The first point: the output is reset to zero first. -/
def stepFirst (x0 : Vec F S8x385x385 .f32) (x1 : Vec F S1x385x385 .f32) : FVec F S1x1 .f32 :=
  addPoint x0 x1 (k0_pay3 (F := F))

/-- A middle point. -/
def stepMid (x0 : Vec F S8x385x385 .f32) (x1 : Vec F S1x385x385 .f32) (prev : Vec F S1x1 .f32) : FVec F S1x1 .f32 :=
  addPoint x0 x1 prev

/-- The last point: the last row's own column and lane pairs go in first. -/
def stepLast (x0 : Vec F S8x385x385 .f32) (x1 : Vec F S1x385x385 .f32) (prev : Vec F S1x1 .f32) : FVec F S1x1 .f32 :=
  addPoint x0 x1 (k0_pay1 (k0_pay4 x1) prev)

/-- Rows 8 t … 8 t + 7 of the grid. -/
def slab (occ : Vec F S385x385x385 .f32) (t : Fin 48) : Vec F S8x385x385 .f32 :=
  fun j => occ (ix3 (⟨8 * t.val + (j 0).val, by have := t.isLt; have : (j 0).val < 8 := (j 0).isLt; omega⟩ : Fin 385)
    (⟨(j 1).val, (j 1).isLt⟩ : Fin 385) (⟨(j 2).val, (j 2).isLt⟩ : Fin 385))

/-- Row 8 t + 8 of the grid, as a slab of one row. -/
def nextRow (occ : Vec F S385x385x385 .f32) (t : Fin 48) : Vec F S1x385x385 .f32 :=
  fun j => occ (ix3 (⟨8 * t.val + 8, by have := t.isLt; omega⟩ : Fin 385)
    (⟨(j 1).val, (j 1).isLt⟩ : Fin 385) (⟨(j 2).val, (j 2).isLt⟩ : Fin 385))

/-- The output after point `n`. -/
def accAt (occ : Vec F S385x385x385 .f32) : (n : ℕ) → n < 48 → Vec F S1x1 .f32
  | 0, h => stepFirst (slab occ ⟨0, h⟩) (nextRow occ ⟨0, h⟩)
  | n + 1, h =>
    if n + 1 = 47 then stepLast (slab occ ⟨n + 1, h⟩) (nextRow occ ⟨n + 1, h⟩) (accAt occ n (Nat.lt_of_succ_lt h))
    else stepMid (slab occ ⟨n + 1, h⟩) (nextRow occ ⟨n + 1, h⟩) (accAt occ n (Nat.lt_of_succ_lt h))

theorem accAt_zero (occ : Vec F S385x385x385 .f32) (h : 0 < 48) :
    accAt occ 0 h = stepFirst (slab occ ⟨0, h⟩) (nextRow occ ⟨0, h⟩) := rfl

theorem accAt_succ_last (occ : Vec F S385x385x385 .f32) (n : ℕ) (h : n + 1 < 48) (hl : n + 1 = 47) :
    accAt occ (n + 1) h = stepLast (slab occ ⟨n + 1, h⟩) (nextRow occ ⟨n + 1, h⟩) (accAt occ n (Nat.lt_of_succ_lt h)) := by
  rw [accAt, if_pos hl]

theorem accAt_succ_mid (occ : Vec F S385x385x385 .f32) (n : ℕ) (h : n + 1 < 48) (hl : ¬ n + 1 = 47) :
    accAt occ (n + 1) h = stepMid (slab occ ⟨n + 1, h⟩) (nextRow occ ⟨n + 1, h⟩) (accAt occ n (Nat.lt_of_succ_lt h)) := by
  rw [accAt, if_neg hl]

end Cert.KernelIdeal.Step

end
-- ==== Proof.KIFrame.lean ====
/-
  The kernel's program run to its end, and what its result holds.

  Both input windows stage ONE array, the grid: the slab of 8 rows at point t and the single row that follows it.
  The grid's buffer is therefore dealt in two halves of the full share when the region is entered and joined again
  when it is left; nothing writes it.  The one-entry output is carried in its staging buffer from point to point and
  written back once, after the last point; the reshape that follows the region reads it as a scalar.  Between points
  the body keeps nothing of its own.
-/
import proofs.«170673_j44753559224580_1_alg».proof.Proof.KIBody
import proofs.«170673_j44753559224580_1_alg».proof.Proof.KIStep
import proofs.«170673_j44753559224580_1_alg».proof.Proof.LibSharedLaunch
import Idealize.ShloMosaic.Lib.Pipeline.Frame
import Idealize.ShloMosaic.Lib.Pipeline.FrameSuffix
import Idealize.ShloMosaic.Lib.Pipeline.Value
import Idealize.ShloMosaic.Lib.StableHlo.Run

set_option maxRecDepth 16384

noncomputable section

namespace Cert.KernelIdeal.Fr

open Cert.KernelIdeal Cert.KernelIdeal.Gen Cert.KernelIdeal.Body Cert.KernelIdeal.Step
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them, and the proof data -/

/-- Core `c`'s buffer contents when the region is entered (no host operation runs before it). -/
abbrev V0 (c : Dev nD) : Valuation τ sig (Elt F) := StableHlo.after (List.flatten []) (fun b => m (c, b))
abbrev V (c : Dev nD) (b : Ref sig .tc) : Buf (Elt F) ((c : Thread nD τ).loc b) := V0 m c (Proc.devRef .tc b)

/-- The grid of values: the one argument array, which both input windows stage. -/
abbrev occ (c : Dev nD) : Vec F S385x385x385 .f32 := V m c main_arg0

/-- A grid point as a number below 48. -/
abbrev pt (t : Fin cfg0.N) : Fin 48 := ⟨t.val, lt_of_lt_of_eq t.isLt N_0⟩

/-- The proof data: both input windows' array is the grid, held at one half of the full share each; after the body
    the slab's buffer holds the slab, the next row's buffer the next row, and the output's buffer the running total. -/
def dats (_ : Fin 1) (c : Dev nD) : Dat τ (Elt F) Unit ℕ (UR sig nD τ) ℕ cfg0 c where
  A w := V m c (Pipeline.arrRef spec0 w)
  after w t := match w with
    | ⟨0, _⟩ => slab (occ m c) (pt t)
    | ⟨1, _⟩ => nextRow (occ m c) (pt t)
    | ⟨2, _⟩ => accAt (occ m c) t.val (lt_of_lt_of_eq t.isLt N_0)
  Φ _ := iprop(emp)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = slab (occ m c) (pt t) := by dsimp only [dats]
theorem after_1 (c : Dev nD) (t : Fin cfg0.N) : (dats m 0 c).after 1 t = nextRow (occ m c) (pt t) := by dsimp only [dats]
theorem after_2 (c : Dev nD) (t : Fin cfg0.N) :
    (dats m 0 c).after 2 t = accAt (occ m c) t.val (lt_of_lt_of_eq t.isLt N_0) := by dsimp only [dats]

/-! ## What the body finds in each staging buffer -/

/-- No block of the slab's window overhangs the grid: at every point the fetch moves the whole block. -/
theorem clip0_none : ∀ (t : Fin cfg0.N) (a : Fin 3), win0_0.clip (grid0.coords t) a = none :=
  (by decide +kernel : ∀ (t : Fin grid0.N) (a : Fin 3), win0_0.clip (grid0.coords t) a = none)
/-- The slab's block index at point `t` is `t` on the rows and 0 elsewhere; the next row's is `8 t + 8`. -/
theorem index0 : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)
theorem index1 : ∀ t : Fin cfg0.N, win0_1.index t 0 = 8 * t.val + 8 ∧ win0_1.index t 1 = 0 ∧ win0_1.index t 2 = 0 :=
  (by decide +kernel : ∀ t : Fin grid0.N, win0_1.index t 0 = 8 * t.val + 8 ∧ win0_1.index t 1 = 0 ∧ win0_1.index t 2 = 0)

/-- The slab's buffer, just fetched, holds rows 8 t … 8 t + 7 of the grid, whatever it held before. -/
theorem before_0 (c : Dev nD) (t : Fin cfg0.N) (d) : (dats m 0 c).before 0 t d = slab (occ m c) (pt t) := by
  rw [Dat.before_fetched _ 0 t (fetch0_0 t)]
  funext j
  have hm : win0_0.moved (grid0.coords t) j = true :=
    (win0_0.moved_iff _ j).mpr fun a => by have := (j a).isLt; unfold Window.xsize; rw [clip0_none t a]; exact this
  unfold Dat.fetched Window.fill
  rw [dif_pos hm]
  unfold Dat.blockOf
  rw [A_eq]
  show V m c main_arg0 ((win0_0.blk t).view.emb _) = occ m c _
  refine congrArg (V m c main_arg0) (funext fun a => Fin.ext ?_)
  obtain ⟨h0, h1, h2⟩ := index0 t
  match a with
  | ⟨0, _⟩ => show win0_0.index t 0 * 8 + 1 * (j 0).val = 8 * t.val + (j 0).val; rw [h0]; omega
  | ⟨1, _⟩ => show win0_0.index t 1 * 385 + 1 * (j 1).val = (j 1).val; rw [h1]; omega
  | ⟨2, _⟩ => show win0_0.index t 2 * 385 + 1 * (j 2).val = (j 2).val; rw [h2]; omega

/-- The next row's buffer, just fetched, holds row 8 t + 8 of the grid. -/
theorem before_1 (c : Dev nD) (t : Fin cfg0.N) (d) : (dats m 0 c).before 1 t d = nextRow (occ m c) (pt t) := by
  rw [Dat.before_fetched _ 1 t (fetch0_1 t)]
  funext j
  have hm : win0_1.moved (grid0.coords t) j = true :=
    (win0_1.moved_iff _ j).mpr fun a => (j a).isLt
  unfold Dat.fetched Window.fill
  rw [dif_pos hm]
  unfold Dat.blockOf
  rw [A_eq]
  show V m c main_arg0 ((win0_1.blk t).view.emb _) = occ m c _
  refine congrArg (V m c main_arg0) (funext fun a => Fin.ext ?_)
  obtain ⟨h0, h1, h2⟩ := index1 t
  have hj0 : (j 0).val = 0 := by have : (j 0).val < 1 := (j 0).isLt; omega
  match a with
  | ⟨0, _⟩ => show win0_1.index t 0 * 1 + 1 * (j 0).val = 8 * t.val + 8; rw [h0, hj0]; omega
  | ⟨1, _⟩ => show win0_1.index t 1 * 385 + 1 * (j 1).val = (j 1).val; rw [h1]; omega
  | ⟨2, _⟩ => show win0_1.index t 2 * 385 + 1 * (j 2).val = (j 2).val; rw [h2]; omega

/-- At the first point the output's buffer holds anything; -/
theorem before_2_first (c : Dev nD) (t : Fin cfg0.N) (h0 : t.val = 0) (d) : (dats m 0 c).before 2 t d = d :=
  Dat.before_out_reset _ 2 rfl t (.inl h0) d
/-- at a later point, what the body left at the point before: the output is written back only after the last point. -/
theorem before_2_later (c : Dev nD) (t : Fin cfg0.N) (h0 : t.val ≠ 0) (d) :
    (dats m 0 c).before 2 t d = accAt (occ m c) (t.val - 1) (lt_of_le_of_lt (Nat.sub_le _ _) (lt_of_lt_of_eq t.isLt N_0)) := by
  have hN : t.val < 48 := lt_of_lt_of_eq t.isLt N_0
  rw [Dat.before_out_kept _ 2 rfl t h0 (Bool.eq_false_iff.mpr fun h => by have := (flush0_2 _).mp h; dsimp only at this; omega)
    (fun _ => rfl) (fun _ _ => rfl)]
  dsimp only [dats]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns: the slab's buffer stated on the part its transfers move (all of it). -/
def bodyPost (c : Dev nD) (t : Fin cfg0.N) : sProp 𝕄 :=
  iprop((dats m 0 c).Φ t.succ ∗ (dats m 0 c).owesAt () t.succ
    ∗ (∃ d, owns (c : Thread nD τ) (st0_0 t) fullShare ((cfg0.win 0).fill (cfg0.grid.coords t) d ((cfg0.win 0).cut (cfg0.grid.coords t) ((dats m 0 c).after 0 t))))
    ∗ owns (c : Thread nD τ) (st0_1 t) fullShare ((dats m 0 c).after 1 t)
    ∗ owns (c : Thread nD τ) (st0_2 t) fullShare ((dats m 0 c).after 2 t))

set_option maxHeartbeats 800000 in
/-- The body at any point: the two input buffers hold the slab and the next row; the point is the first, a middle
    one or the last, and the matching run applies, the output's buffer entering at what the point before left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).Φ t.succ = (dats m 0 c).Φ t.castSucc from rfl,
    show (dats m 0 c).owesAt () t.succ = (dats m 0 c).owesAt () t.castSucc from rfl,
    after_0, after_1, after_2]
  have hN : t.val < 48 := lt_of_lt_of_eq t.isLt N_0
  by_cases h0 : t.val = 0
  · have hc0 : condFirst (grid0.coords t) := (hcondFirst t).mpr h0
    have hc1 : ¬condLast (grid0.coords t) := fun h => by have := (hcondLast t).mp h; omega
    have hacc : accAt (occ m c) t.val (lt_of_lt_of_eq t.isLt N_0)
        = outFirst c (grid0.coords t) _ (hstage0_0 ((cfg0.slots t 0).cast nbuf0_0)) _ (hstage0_1 ((cfg0.slots t 1).cast nbuf0_1)) _ (hstage0_2 ((cfg0.slots t 2).cast nbuf0_2)) hc0 hc1 (slab (occ m c) (pt t)) (nextRow (occ m c) (pt t)) := by
      rw [outFirst_eq]
      obtain ⟨n, hn⟩ := t
      obtain rfl : n = 0 := h0
      rfl
    rw [hacc]
    unfold outFirst
    iintro ⟨HΦ, Ho, ⟨%d0, H0⟩, ⟨%d1, H1⟩, ⟨%d2, H2⟩⟩
    iapply ((runFirst c (grid0.coords t) _ _ _ _ _ _ hc0 hc1 (slab (occ m c) (pt t)) (nextRow (occ m c) (pt t))).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexists (slab (occ m c) (pt t)); rw [Window.fill_cut]; iexact H0
    isplitl [H1]; · iexact H1
    unfold owns; iexists _; isplitr
    swap; · iexact H2
    ipureintro; exact View.read_writes_of_cover _ _ _ _ _ (coverFirst c _ _ _ _ _ _ _ _ _ _ _)
  · simp only [before_2_later m c t h0]
    by_cases h1 : t.val = 47
    · have hc0 : ¬condFirst (grid0.coords t) := fun h => h0 ((hcondFirst t).mp h)
      have hc1 : condLast (grid0.coords t) := (hcondLast t).mpr h1
      have hacc : accAt (occ m c) t.val (lt_of_lt_of_eq t.isLt N_0)
          = outLast c (grid0.coords t) _ (hstage0_0 ((cfg0.slots t 0).cast nbuf0_0)) _ (hstage0_1 ((cfg0.slots t 1).cast nbuf0_1)) _ (hstage0_2 ((cfg0.slots t 2).cast nbuf0_2)) hc0 hc1 (slab (occ m c) (pt t)) (nextRow (occ m c) (pt t))
              (accAt (occ m c) (t.val - 1) (lt_of_le_of_lt (Nat.sub_le _ _) (lt_of_lt_of_eq t.isLt N_0))) := by
        rw [outLast_eq]
        obtain ⟨n, hn⟩ := t
        cases n with
        | zero => exact absurd rfl h0
        | succ n => exact accAt_succ_last _ n _ h1
      rw [hacc]
      unfold outLast
      iintro ⟨HΦ, Ho, ⟨%d0, H0⟩, ⟨%d1, H1⟩, ⟨%d2, H2⟩⟩
      iapply ((runLast c (grid0.coords t) _ _ _ _ _ _ hc0 hc1 (slab (occ m c) (pt t)) (nextRow (occ m c) (pt t)) _).2 Set.univ _)
      isplitl [H0]; · iexact H0
      isplitl [H1]; · iexact H1
      isplitl [H2]; · iexact H2
      iintro ⟨H0, H1, ⟨%e2, H2⟩⟩
      isplitl [HΦ]; · iexact HΦ
      isplitl [Ho]; · iexact Ho
      isplitl [H0]; · iexists (slab (occ m c) (pt t)); rw [Window.fill_cut]; iexact H0
      isplitl [H1]; · iexact H1
      unfold owns; iexists _; isplitr
      swap; · iexact H2
      ipureintro; exact View.read_writes_of_cover _ _ _ _ _ (coverLast c _ _ _ _ _ _ _ _ _ _ _ _)
    · have hc0 : ¬condFirst (grid0.coords t) := fun h => h0 ((hcondFirst t).mp h)
      have hc1 : ¬condLast (grid0.coords t) := fun h => h1 ((hcondLast t).mp h)
      have hacc : accAt (occ m c) t.val (lt_of_lt_of_eq t.isLt N_0)
          = outMid c (grid0.coords t) _ (hstage0_0 ((cfg0.slots t 0).cast nbuf0_0)) _ (hstage0_1 ((cfg0.slots t 1).cast nbuf0_1)) _ (hstage0_2 ((cfg0.slots t 2).cast nbuf0_2)) hc0 hc1 (slab (occ m c) (pt t)) (nextRow (occ m c) (pt t))
              (accAt (occ m c) (t.val - 1) (lt_of_le_of_lt (Nat.sub_le _ _) (lt_of_lt_of_eq t.isLt N_0))) := by
        rw [outMid_eq]
        obtain ⟨n, hn⟩ := t
        cases n with
        | zero => exact absurd rfl h0
        | succ n => exact accAt_succ_mid _ n _ h1
      rw [hacc]
      unfold outMid
      iintro ⟨HΦ, Ho, ⟨%d0, H0⟩, ⟨%d1, H1⟩, ⟨%d2, H2⟩⟩
      iapply ((runMid c (grid0.coords t) _ _ _ _ _ _ hc0 hc1 (slab (occ m c) (pt t)) (nextRow (occ m c) (pt t)) _).2 Set.univ _)
      isplitl [H0]; · iexact H0
      isplitl [H1]; · iexact H1
      isplitl [H2]; · iexact H2
      iintro ⟨H0, H1, ⟨%e2, H2⟩⟩
      isplitl [HΦ]; · iexact HΦ
      isplitl [Ho]; · iexact Ho
      isplitl [H0]; · iexists (slab (occ m c) (pt t)); rw [Window.fill_cut]; iexact H0
      isplitl [H1]; · iexact H1
      unfold owns; iexists _; isplitr
      swap; · iexact H2
      ipureintro; exact View.read_writes_of_cover _ _ _ _ _ (coverMid c _ _ _ _ _ _ _ _ _ _ _ _)

/-- The library's body obligation (the slab's window stated on the moved part), at every point. -/
theorem body_obligation (c : Dev nD) : BodyObligationLoose (dats (F := F) m 0 c) (defs₀ (F := F)) Variants.none () Set.univ := fun t => by
  rw [bigSep_W0, bigSep_W0]
  exact sound_body m c t

/-! ## The host operation after the region, and the arrays' shares -/

theorem hostOps1_fresh : (hostOps1 : List (HloOp τ sig (Elt F))).Forall fun op => op.fresh = ∅ := by
  simp only [List.Forall]; repeat' constructor

/-- @main is the region followed by the reshape of its result. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

theorem sfx_sub : ∀ ops ∈ ([hostOps1] : List (List (HloOp τ sig (Elt F)))), ∀ op ∈ ops, op.bufs ⊆ StableHlo.tcRefs τ sig := by
  intro ops hops op hop
  simp only [List.mem_cons, List.mem_nil_iff, or_false] at hops
  rcases hops with rfl
  exact (List.forall_iff_forall_mem.mp hostOps1_sub) op hop
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- The reshape writes its own result only, which is no array of the region. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w; fin_cases w <;> simp only [StableHlo.reshape_writes, Finset.mem_singleton] <;> exact StableHlo.devRef_ne_of_ne (by decide)

/-- The contents at the region's exit: the output array at what the write-backs left, every other buffer as found. -/
def Vx (c : Dev nD) : Valuation τ sig (Elt F) := fun b =>
  if h : Proc.devRef .tc main_v0 = b then
    cast (congrArg (fun b' : DevRef τ sig => b'.ty.Contents (Elt F)) h) ((dats m 0 c).arrAt 2 cfg0.N)
  else V0 m c b
theorem Vx_v0 (c : Dev nD) : Vx m c (Proc.devRef .tc main_v0) = (dats m 0 c).arrAt 2 cfg0.N := by
  unfold Vx; rw [dif_pos rfl]; rfl
theorem Vx_of_ne (c : Dev nD) (b : Ref sig .tc) (hb : main_v0 ≠ b) : Vx m c (Proc.devRef .tc b) = V0 m c (Proc.devRef .tc b) := by
  unfold Vx; rw [dif_neg]; intro e; exact hb (Proc.devRef_injective _ e)

/-- The two distinct buffers behind the three windows' arrays. -/
theorem arrBufs_eq (c : Dev nD) (W : (b : Ref sig .tc) → Buf (Elt F) ((c.tc : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_v0) ↦{fullShare} W main_v0)) := by
  unfold Pipeline.arrBufs
  exact bigSep_eq_bigSepL_of_eq [main_arg0, main_v0] (by decide) (by decide) _

/-- The windows' arrays: the grid at the two halves of the full share, the output array outright. -/
theorem arrays_eq (c : Dev nD) (Fw : (w : Fin cfg0.W) → Buf (Elt F) ((cfg0.win w).arr.view.loc (c.tc : Thread nD τ))) :
    ((dats m 0 c).arrays Fw : sProp 𝕄)
      = iprop((((c : Thread nD τ).loc main_arg0) ↦{fullShare.left} Fw 0) ∗ (((c : Thread nD τ).loc main_arg0) ↦{fullShare.right} Fw 1)
          ∗ (((c : Thread nD τ).loc main_v0) ↦{fullShare} Fw 2)) := by
  unfold Dat.arrays
  rw [bigSep_W0, (arr_whole0 0).set_eq_univ, (arr_whole0 2).set_eq_univ]
  rfl

/-- Entering the region: the grid's buffer, whole at the full share, is dealt in halves to the two windows that stage it. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq, arrays_eq]
  iintro ⟨Ha, Hv⟩
  ihave Ha2 := (pointsTo_share (PosShare.mem_left_op_right fullShare)).1 $$ Ha
  icases Ha2 with ⟨Hl, Hr⟩
  isplitl [Hl]; · iexact Hl
  isplitl [Hr]; · iexact Hr
  iexact Hv

/-- Leaving it: the two halves, still at the grid's contents, are the whole again; the output array holds what the
    write-backs left. -/
theorem hmerge (c : Dev nD) :
    ((dats m 0 c).arrays ((dats m 0 c).arrAt · cfg0.N) : sProp 𝕄)
      ⊣⊢ Pipeline.arrBufs (Ix := Unit) (Name := ℕ) (U := UR sig nD τ) (Lvl := ℕ) spec0 c (fun b => Vx m c (Proc.devRef .tc b)) := by
  rw [arrBufs_eq, arrays_eq, (dats m 0 c).arrAt_in 0 rfl, (dats m 0 c).arrAt_in 1 rfl, Vx_v0, Vx_of_ne m c main_arg0 (by decide)]
  constructor
  · iintro ⟨Hl, Hr, Hv⟩
    isplitl [Hl Hr]
    · iapply (pointsTo_share (PosShare.mem_left_op_right fullShare)).2
      isplitl [Hl]; · iexact Hl
      iexact Hr
    iexact Hv
  · iintro ⟨Ha, Hv⟩
    ihave Ha2 := (pointsTo_share (PosShare.mem_left_op_right fullShare)).1 $$ Ha
    icases Ha2 with ⟨Hl, Hr⟩
    isplitl [Hl]; · iexact Hl
    isplitl [Hr]; · iexact Hr
    iexact Hv

/-- The buffers that bypass the region are as found at its exit. -/
theorem hrest (c : Dev nD) : ∀ b ∈ Pipeline.restRefs sig spec0, Vx m c (Proc.devRef .tc b) = V0 m c (Proc.devRef .tc b) := by
  intro b hb
  refine Vx_of_ne m c b fun e => ?_
  subst e
  revert hb
  decide

/-! ## The run -/

set_option backward.isDefEq.respectTransparency.types false in
/-- Every weakly fair execution of @main terminates; the windows' arrays end at what the proof data computes and the
    reshaped result at the reshape of the exit contents. -/
theorem run_main : θ_run defs (onTc (τ := τ) (main (F := F))) (s₀ m ρ) (fun r => ∀ c : Dev nD,
      (∀ w, r.2.mem (((cfg0).spec w).arr.view.loc (c.tc : Thread nD τ)) = (dats m 0 c).arrAt w cfg0.N)
      ∧ ∀ b ∈ Pipeline.restRefs sig (cfg0).spec, r.2.mem ((c.tc : Thread nD τ).loc b)
          = StableHlo.after ([hostOps1] : List (List (HloOp τ sig (Elt F)))).flatten (Vx m c) (Proc.devRef .tc b)) :=
  Pipeline.θ_run_shared_around cfgs (dats m) (0 : Fin 1) defs₀ Variants.none cellOf_inj winFacts₀0 block_pos0 arr_whole0 stage_whole0 m ρ main
    (hbody := body_obligation m) (howed := fun _ _ => rfl) (V₀ := V0 m) (Vx := Vx m) (opss := [hostOps1])
    (hsub := sfx_sub) (hfresh := sfx_fresh) (hkeep := sfx_keeps) (hmain := hmain m Variants.none)
    (hsplit := hsplit m) (hmerge := hmerge m) (hrest := hrest m)
    (hin := fun c => by rw [scopedRest0_eq]; exact .rfl)
    (hout := fun c => by rw [scopedRest0_eq]; exact .rfl)

/-- THE FRAME: the argument array ends as it began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).1 0).trans ((dats m 0 c).arrAt_in 0 rfl _)) (run_main m ρ)

/-! ## The result -/

/-- The output array's one entry after the run: what the last point left in the staging buffer, written back. -/
theorem final_out (c : Dev nD) (i : S1x1.Idx) :
    (dats m 0 c).arrAt 2 cfg0.N i = accAt (occ m c) 47 (by omega) (ix2 0 0) := by
  have hsub : ∀ a b : S1x1.Idx, a = b := fun a b => funext fun d => Fin.ext (by
    have ha : (a d).val < 1 := by match d with | ⟨0, _⟩ => exact (a 0).isLt | ⟨1, _⟩ => exact (a 1).isLt
    have hb : (b d).val < 1 := by match d with | ⟨0, _⟩ => exact (b 0).isLt | ⟨1, _⟩ => exact (b 1).isLt
    omega)
  refine (dats m 0 c).arrAt_forall_of_cover 2 (fun _ v => v = accAt (occ m c) 47 (by omega) (ix2 0 0)) ?_ ?_ i
  · intro t hf y
    have ht : t.val = 47 := by have := (flush0_2 t).mp hf; have hN : t.val < 48 := lt_of_lt_of_eq t.isLt N_0; omega
    show (dats m 0 c).after 2 t _ = _
    rw [after_2]
    obtain ⟨n, hn⟩ := t
    obtain rfl : n = 47 := ht
    exact congrArg _ (hsub _ _)
  · intro (j : S1x1.Idx)
    have h47 : 47 < cfg0.N := by rw [show cfg0.N = 48 from N_0]; omega
    refine ⟨⟨47, h47⟩, (flush0_2 _).mpr rfl, ?_⟩
    show j ∈ ((View.whole main_v0).slice (win0_2.rect ⟨47, h47⟩)).set
    rw [View.set_slice_whole, Rect.mem_set_unit]
    intro a
    match a with
    | ⟨0, _⟩ => exact ⟨Nat.zero_le _, (j 0).isLt⟩
    | ⟨1, _⟩ => exact ⟨Nat.zero_le _, (j 1).isLt⟩

/-- The reshaped result is that entry. -/
theorem result_eq (c : Dev nD) :
    StableHlo.after ([hostOps1] : List (List (HloOp τ sig (Elt F)))).flatten (Vx m c) (Proc.devRef .tc main_v1)
      = fun _ => accAt (occ m c) 47 (by omega) (ix2 0 0) := by
  simp only [hostOps1, List.flatten_cons, List.flatten_nil, List.append_nil]
  after_results
  funext i
  show shapeCast S_ (Vx m c (Proc.devRef .tc main_v0)) shapeCasts_S1x1_S_ i = _
  rw [Vx_v0]
  refine (shapeCast_apply _ shapeCasts_S1x1_S_ i (ix2 0 0) ?_).trans (final_out m c _)
  rfl

/-- THE VALUE RUN: every weakly fair execution terminates with the result at the running total after the last point
    and the argument array as it began. -/
theorem run_value : θ_run defs (onTc (τ := τ) (main (F := F))) ⟨m, fun _ => 0, ρ⟩ (fun r => ∀ c : Dev nD,
      r.2.mem ((c.tc : Thread nD τ).loc main_v1) = (fun _ => accAt (m ((c.tc : Thread nD τ).loc main_arg0)) 47 (by omega) (ix2 0 0))
      ∧ r.2.mem ((c.tc : Thread nD τ).loc main_arg0) = m ((c.tc : Thread nD τ).loc main_arg0)) :=
  (θ_run defs _ _).mono (fun _ h c => ⟨((h c).2 main_v1 (by decide)).trans (result_eq m c),
    ((h c).1 0).trans ((dats m 0 c).arrAt_in 0 rfl _)⟩) (run_main m ρ)

end Cert.KernelIdeal.Fr

end
-- ==== Proof.LibKeepdims.lean ====
/-
  Layout operations of a `keepdims=True` row reduction, read at an index given by coordinates, generic in the extents:
  a vector made a one-column matrix by a shape cast ([a] → [a, 1]); a one-column matrix broadcast along its rows
  ([a, 1] → [a, b]); and, on the extended reals, a float lane sum over axis 1 of a matrix read at a row as the sum over
  that row's entries. Each is the library's general lemma (`shapeCast_apply`, `broadcastTo_apply`,
  `Ideal.multiReduction_add_single`) with both indices written `ix1` / `ix2` and the coordinate arithmetic done.
-/
import Idealize.ShloMosaic.Lib.Pipeline.Value
import Idealize.ShloMosaic.Lib.ValueIdx
import Idealize.ShloMosaic.PureOps.Ideal.Laws

namespace Cert.Lib.Keepdims

open Idealize.ShloMosaic Idealize.ShloMosaic.ValueIdx

variable {α : Type}

/-- A vector cast to a one-column matrix reads, at (p, z), the vector at p: both have row-major position p. -/
theorem shapeCast_a_a1_apply {a : ℕ} (v : (⟨1, ![a]⟩ : Shape).Idx → α) (h : (⟨1, ![a]⟩ : Shape).ShapeCasts ⟨2, ![a, 1]⟩)
    (p : Fin a) (z : Fin 1) : shapeCast ⟨2, ![a, 1]⟩ v h (ix2 p z) = v (ix1 p) := by
  refine shapeCast_apply v h (ix2 p z) (ix1 p) ?_
  rw [Shape.rowMajor_val_one, Shape.rowMajor_val_two]
  show p.val = p.val * 1 + z.val
  have := z.isLt
  omega

/-- A one-column matrix broadcast along its rows reads, at (p, q), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- On the extended reals a float lane sum over axis 1 of a matrix is, at row p, the sum over k of the entry (p, k).
    The accumulator's hypothesis is typed as a printed payload's proof is (the zero word equal to itself). -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src ?_
  funext ax
  match ax with
  | ⟨0, _⟩ => rfl
  | ⟨1, _⟩ => rfl

end Cert.Lib.Keepdims
-- ==== Proof.LibLaneSum3.lean ====
/-
  A float lane sum over the LAST axis of a rank-3 array, read at one entry of the result, generic in the extents.

  On the extended reals a `vector.multi_reduction <add>` over axis 2 of an [a, b, c] array is, at entry (p, q) of the
  [a, b] result, the sum over k < c of the source at (p, q, k). This is the library's one-axis reading
  (`Ideal.multiReduction_add_single`) with both indices written by coordinates, so that the summation variable has the
  literal type `Fin c` and the source index is `ix3 p q k`.
-/
import Idealize.ShloMosaic.Lib.ValueIdx
import Idealize.ShloMosaic.PureOps.Ideal.Laws

namespace Cert.Lib.LaneSum3

open Idealize.ShloMosaic Idealize.ShloMosaic.ValueIdx

/-- Entry (p, q) of the sum over axis 2 is the sum over k of entry (p, q, k). -/
theorem laneSum_apply {a b c : ℕ} {φ : FTy} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ k : Fin c, src (ix3 p q k) := by
  refine (Ideal.multiReduction_add_single src acc h hφ hacc (ix2 p q)).trans ?_
  refine Finset.sum_congr rfl fun k _ => congrArg src ?_
  funext ax
  match ax with
  | ⟨0, _⟩ => rfl
  | ⟨1, _⟩ => rfl
  | ⟨2, _⟩ => rfl

end Cert.Lib.LaneSum3
-- ==== Proof.LibColumnSoftmax.lean ====
/-
  Reductions DOWN THE COLUMNS of an `[a, b]` matrix (over axis 0), kept as a row and spread back over the rows, read
  at one entry at the ideal values; and the softmax of each column built from them.

  For a matrix `v` and a column `c`:
  * the maximum over axis 0 at `c` is the fold of `max`, from the accumulator's value, over the entries `v (k, c)`;
  * the sum over axis 0 at `c` is `∑ k, v (k, c)`;
  * a length-`b` vector cast to the one-row matrix `[1, b]` and broadcast to `[a, b]` reads, at `(p, c)`, the
    vector at `c` — so a column statistic spread back over the matrix is the same number in every row;
  * hence `exp (v - max) / sum (exp (v - max))`, all taken down the columns, is at `(e, c)` the softmax of the
    column `k ↦ v (k, c)` at `e`.
  Generic in the extents `a`, `b`.
-/
import Idealize.ShloMosaic.PureOps.Ideal.Laws
import Idealize.ShloMosaic.Lib.Pipeline.Value
import Idealize.ShloMosaic.Lib.ValueIdx
import Idealize.ShloMosaic.Lib.ValueLayout

noncomputable section

namespace Cert.LibColumnSoftmax

open Idealize.ShloMosaic Idealize.ShloMosaic.ValueIdx
open scoped BigOperators

variable {a b : ℕ}

/-- The softmax of a finite family of extended reals, the maximum folded from `init`:
    `exp (l e - M) / ∑ e', exp (l e' - M)` with `M = max (init, l 0, l 1, …)`. -/
def softmaxFrom (init : EReal) (l : Fin a → EReal) (e : Fin a) : EReal :=
  Ideal.div (Ideal.exp (l e - (Finset.univ : Finset (Fin a)).fold max init l))
    (∑ e' : Fin a, Ideal.exp (l e' - (Finset.univ : Finset (Fin a)).fold max init l))

/-- Taking `max` once more with the value a fold of `max` started from changes nothing. -/
theorem max_fold_max_init {ι : Type} (s : Finset ι) (init : EReal) (f : ι → EReal) :
    max init (s.fold max init f) = s.fold max init f :=
  max_eq_right ((Finset.le_fold_max init).2 (Or.inl le_rfl))

/-- A length-`b` vector cast to the one-row matrix reads, at `(u, c)`, the vector at `c`. -/
theorem shapeCast_row_apply {α : Type} (v : (⟨1, ![b]⟩ : Shape).Idx → α)
    (h : (⟨1, ![b]⟩ : Shape).ShapeCasts ⟨2, ![1, b]⟩) (u : Fin 1) (c : Fin b) :
    shapeCast ⟨2, ![1, b]⟩ v h (ix2 u c) = v (ix1 c) :=
  shapeCast_apply v h (ix2 u c) (ix1 c) (by
    rw [Shape.rowMajor_val_one, Shape.rowMajor_val_two]
    show c.val = u.val * b + c.val
    have hu : u.val = 0 := by have := u.isLt; omega
    rw [hu, Nat.zero_mul, Nat.zero_add])

/-- The row spread back over `a` rows reads, at `(p, c)`, the vector at `c`. -/
theorem rowBroadcast_apply {α : Type} (v : (⟨1, ![b]⟩ : Shape).Idx → α)
    (hc : (⟨1, ![b]⟩ : Shape).ShapeCasts ⟨2, ![1, b]⟩) (hb : (⟨2, ![1, b]⟩ : Shape).Broadcasts ⟨2, ![a, b]⟩)
    (p : Fin a) (c : Fin b) :
    broadcastTo ⟨2, ![a, b]⟩ (shapeCast ⟨2, ![1, b]⟩ v hc) hb (ix2 p c) = v (ix1 c) :=
  (broadcastTo_1b_ab_apply _ hb p c).trans (shapeCast_row_apply v hc 0 c)

/-- The index a reduction over axis 0 reads for column `c` at coordinate `k` is `(k, c)`. -/
theorem lift_axis0 (h : (⟨2, ![a, b]⟩ : Shape).Reduces [0] ⟨1, ![b]⟩) (c : Fin b) (k : Fin a) :
    h.lift (ix1 c) k = ix2 k c :=
  funext fun d => Fin.ext (by match d with | ⟨0, _⟩ => rfl | ⟨1, _⟩ => rfl)

/-- A one-column matrix `[a, 1]` spread over `b` columns reads, at `(p, c)`, the column's entry in row `p`. -/
theorem colBroadcast_apply {α : Type} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

variable {φ : FTy}

/-- A float maximum over axis 0, at column `c`: the fold of `max` from the accumulator's value over the column. -/
theorem colMax_apply (v : FVec Ideal ⟨2, ![a, b]⟩ φ) (acc : BitVec φ.bits)
    (h : (⟨2, ![a, b]⟩ : Shape).Reduces [0] ⟨1, ![b]⟩) (hφ : FKind.Formats φ)
    (hacc : acc = FKind.maximumf.neutral φ hφ) (c : Fin b) :
    multiReduction .maximumf [0] ⟨1, ![b]⟩ v acc h hφ hacc (ix1 c)
      = (Finset.univ : Finset (Fin a)).fold max (Ideal.ofBits φ acc) (fun k => v (ix2 k c)) := by
  refine (Ideal.multiReduction_maximumf_single v acc h hφ hacc (ix1 c)).trans ?_
  show (Finset.univ : Finset (Fin a)).fold max (Ideal.ofBits φ acc) (fun k => v (h.lift (ix1 c) k)) = _
  exact congrArg (fun g : Fin a → EReal => (Finset.univ : Finset (Fin a)).fold max (Ideal.ofBits φ acc) g)
    (funext fun k => congrArg v (lift_axis0 h c k))

/-- A float sum over axis 0, at column `c`: the sum of the column. -/
theorem colSum_apply (v : FVec Ideal ⟨2, ![a, b]⟩ φ) (acc : BitVec φ.bits)
    (h : (⟨2, ![a, b]⟩ : Shape).Reduces [0] ⟨1, ![b]⟩) (hφ : FKind.Formats φ)
    (hacc : acc = FKind.add.neutral φ hφ) (c : Fin b) :
    multiReduction .add [0] ⟨1, ![b]⟩ v acc h hφ hacc (ix1 c) = ∑ k : Fin a, v (ix2 k c) := by
  refine (Ideal.multiReduction_add_single v acc h hφ hacc (ix1 c)).trans ?_
  show ∑ k : Fin a, v (h.lift (ix1 c) k) = _
  exact Finset.sum_congr rfl fun k _ => congrArg v (lift_axis0 h c k)

/-- THE COLUMN SOFTMAX: the maximum down each column (from the word `m`), spread back and subtracted, the
    exponential, its sum down each column (from the word `z`), spread back, the quotient — at `(e, c)` the softmax of
    column `c` at `e`. -/
theorem colSoftmax_apply (v : FVec Ideal ⟨2, ![a, b]⟩ .f32) (m z : BitVec 32)
    (hr : (⟨2, ![a, b]⟩ : Shape).Reduces [0] ⟨1, ![b]⟩)
    (hc : (⟨1, ![b]⟩ : Shape).ShapeCasts ⟨2, ![1, b]⟩) (hb : (⟨2, ![1, b]⟩ : Shape).Broadcasts ⟨2, ![a, b]⟩)
    (hφ : FKind.Formats .f32) (hm : m = FKind.maximumf.neutral .f32 hφ) (hz : z = FKind.add.neutral .f32 hφ)
    (e : Fin a) (c : Fin b) :
    divf
        (exp (subf v (broadcastTo ⟨2, ![a, b]⟩ (shapeCast ⟨2, ![1, b]⟩ (multiReduction .maximumf [0] ⟨1, ![b]⟩ v m hr hφ hm) hc) hb)))
        (broadcastTo ⟨2, ![a, b]⟩ (shapeCast ⟨2, ![1, b]⟩
          (multiReduction .add [0] ⟨1, ![b]⟩
            (exp (subf v (broadcastTo ⟨2, ![a, b]⟩ (shapeCast ⟨2, ![1, b]⟩ (multiReduction .maximumf [0] ⟨1, ![b]⟩ v m hr hφ hm) hc) hb)))
            z hr hφ hz) hc) hb)
        (ix2 e c)
      = softmaxFrom (Ideal.ofBits .f32 m) (fun k => v (ix2 k c)) e := by
  have hmax : ∀ p : Fin a,
      broadcastTo ⟨2, ![a, b]⟩ (shapeCast ⟨2, ![1, b]⟩ (multiReduction .maximumf [0] ⟨1, ![b]⟩ v m hr hφ hm) hc) hb (ix2 p c)
        = (Finset.univ : Finset (Fin a)).fold max (Ideal.ofBits .f32 m) (fun k => v (ix2 k c)) :=
    fun p => (rowBroadcast_apply _ hc hb p c).trans (colMax_apply v m hr hφ hm c)
  have hexp : ∀ p : Fin a,
      exp (subf v (broadcastTo ⟨2, ![a, b]⟩ (shapeCast ⟨2, ![1, b]⟩ (multiReduction .maximumf [0] ⟨1, ![b]⟩ v m hr hφ hm) hc) hb)) (ix2 p c)
        = Ideal.exp (v (ix2 p c) - (Finset.univ : Finset (Fin a)).fold max (Ideal.ofBits .f32 m) (fun k => v (ix2 k c))) :=
    fun p => congrArg (fun t => Ideal.exp (v (ix2 p c) - t)) (hmax p)
  have hsum := (rowBroadcast_apply _ hc hb e c).trans (colSum_apply
    (exp (subf v (broadcastTo ⟨2, ![a, b]⟩ (shapeCast ⟨2, ![1, b]⟩ (multiReduction .maximumf [0] ⟨1, ![b]⟩ v m hr hφ hm) hc) hb)))
    z hr hφ hz c)
  unfold softmaxFrom
  rw [divf_apply, hexp e, hsum]
  exact congrArg _ (Finset.sum_congr rfl fun k _ => hexp k)

end Cert.LibColumnSoftmax

end
-- ==== Proof.KIPayloads.lean ====
/-
  What the kernel's body computes at one grid point, read as numbers.

  The body holds a slab `x0` of 8 rows of the grid and the one row `x1` that follows it.  Every partial loss it
  forms is a [1, 1] value made by summing absolute differences over the lanes, then the columns, then the rows;
  read on the extended reals each is the plain triple (or double) sum of `gap u v = |u - v|` over the pairs it
  covers: the 7 row pairs inside the slab, the pair (last row of the slab, `x1`), the column pairs and the lane
  pairs of the slab's rows, and — for the last row of the grid — the column and lane pairs of `x1` itself.
-/
import proofs.«170673_j44753559224580_1_alg».proof.Proof.Gen.KernelIdeal.Skeleton
import proofs.«170673_j44753559224580_1_alg».proof.Proof.LibKeepdims
import proofs.«170673_j44753559224580_1_alg».proof.Proof.LibLaneSum3
import proofs.«170673_j44753559224580_1_alg».proof.Proof.LibColumnSoftmax
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx
open scoped BigOperators

/-- The absolute difference on the extended reals, as the float operations spell it. -/
abbrev gap (u v : EReal) : EReal := max (u - v) (-(u - v))

/-- A one-column matrix summed down its column and kept as a [1, 1] value: at its entry, the sum of the column. -/
theorem colTotal_apply {a : ℕ} (v : FVec Ideal ⟨2, ![a, 1]⟩ .f32) (acc : BitVec (FTy.f32).bits)
    (h : (⟨2, ![a, 1]⟩ : Shape).Reduces [0] ⟨1, ![1]⟩) (hφ : FKind.Formats .f32) (hacc : acc = FKind.add.neutral .f32 hφ)
    (hc : (⟨1, ![1]⟩ : Shape).ShapeCasts ⟨2, ![1, 1]⟩) :
    shapeCast ⟨2, ![1, 1]⟩ (multiReduction .add [0] ⟨1, ![1]⟩ v acc h hφ hacc) hc (ix2 0 0) = ∑ k : Fin a, v (ix2 k 0) :=
  (Cert.Lib.Keepdims.shapeCast_a_a1_apply _ hc 0 0).trans (Cert.LibColumnSoftmax.colSum_apply v acc h hφ hacc 0)

/-- A vector made a one-column matrix, summed down and kept as a [1, 1] value: at its entry, the sum of the vector. -/
theorem vecTotal_apply {a : ℕ} (v : FVec Ideal ⟨1, ![a]⟩ .f32) (hv : (⟨1, ![a]⟩ : Shape).ShapeCasts ⟨2, ![a, 1]⟩)
    (acc : BitVec (FTy.f32).bits)
    (h : (⟨2, ![a, 1]⟩ : Shape).Reduces [0] ⟨1, ![1]⟩) (hφ : FKind.Formats .f32) (hacc : acc = FKind.add.neutral .f32 hφ)
    (hc : (⟨1, ![1]⟩ : Shape).ShapeCasts ⟨2, ![1, 1]⟩) :
    shapeCast ⟨2, ![1, 1]⟩ (multiReduction .add [0] ⟨1, ![1]⟩ (shapeCast ⟨2, ![a, 1]⟩ v hv) acc h hφ hacc) hc (ix2 0 0)
      = ∑ k : Fin a, v (ix1 k) :=
  (colTotal_apply _ acc h hφ hacc hc).trans
    (Finset.sum_congr rfl fun k _ => Cert.Lib.Keepdims.shapeCast_a_a1_apply v hv k 0)

/-- A unit-stride slice of a rank-3 array read at coordinates: the source at the coordinates moved by the offsets. -/
theorem slice3_apply {α : Type} {a b c a' b' c' : ℕ} (off : Fin 3 → ℕ) (x : (⟨3, ![a, b, c]⟩ : Shape).Idx → α)
    (h : (⟨3, ![a, b, c]⟩ : Shape).Slices off ⟨3, ![a', b', c']⟩)
    (p : Fin a') (q : Fin b') (k : Fin c') (p' : Fin a) (q' : Fin b) (k' : Fin c)
    (h0 : p'.val = off 0 + p.val) (h1 : q'.val = off 1 + q.val) (h2 : k'.val = off 2 + k.val) :
    extractStridedSlice ⟨3, ![a', b', c']⟩ off x h (ix3 p q k) = x (ix3 p' q' k') :=
  extractStridedSlice_apply off x h (ix3 p q k) (ix3 p' q' k') (fun ax => match ax with
    | ⟨0, _⟩ => h0
    | ⟨1, _⟩ => h1
    | ⟨2, _⟩ => h2)

/-- A unit-stride slice of a matrix read at coordinates: the source at the coordinates moved by the offsets. -/
theorem slice2_apply {α : Type} {a b a' b' : ℕ} (off : Fin 2 → ℕ) (x : (⟨2, ![a, b]⟩ : Shape).Idx → α)
    (h : (⟨2, ![a, b]⟩ : Shape).Slices off ⟨2, ![a', b']⟩)
    (p : Fin a') (q : Fin b') (p' : Fin a) (q' : Fin b)
    (h0 : p'.val = off 0 + p.val) (h1 : q'.val = off 1 + q.val) :
    extractStridedSlice ⟨2, ![a', b']⟩ off x h (ix2 p q) = x (ix2 p' q') :=
  extractStridedSlice_apply off x h (ix2 p q) (ix2 p' q') (fun ax => match ax with
    | ⟨0, _⟩ => h0
    | ⟨1, _⟩ => h1)

/-- The absolute value of a difference of two arrays, at an entry where both are known. -/
theorem absf_subf_apply {s : Shape} (u v : FVec Ideal s .f32) (i : s.Idx) (a b : EReal) (hu : u i = a) (hv : v i = b) :
    absf (subf u v) i = gap a b := by
  show max (u i - v i) (-(u i - v i)) = _
  rw [hu, hv]

/-- The reset value is zero. -/
theorem pay3_apply : k0_pay3 (F := Ideal) (ix2 0 0) = 0 := by
  unfold k0_pay3
  show Ideal.ofBits .f32 0x00000000#32 = 0
  exact Ideal.ofBits_zero_f32

/-- A one-row block seen as a matrix reads, at (b, c), the block at (0, b, c): both have row-major position
    385 b + c. -/
theorem dropRow_apply (v : FVec Ideal S1x385x385 .f32) (b c : Fin 385) :
    shapeCast S385x385 v shapeCasts_S1x385x385_S385x385 (ix2 b c) = v (ix3 0 b c) := by
  refine shapeCast_apply v shapeCasts_S1x385x385_S385x385 (ix2 b c) (ix3 0 b c) ?_
  rw [Shape.rowMajor_val_three, Shape.rowMajor_val_two]
  show ((0 : Fin 1).val * 385 + b.val) * 385 + c.val = b.val * 385 + c.val
  simp

/-- The row after the slab, seen as a matrix. -/
theorem pay4_apply (x1 : FVec Ideal S1x385x385 .f32) (b c : Fin 385) :
    k0_pay4 (F := Ideal) x1 (ix2 b c) = x1 (ix3 0 b c) := by
  unfold k0_pay4
  exact dropRow_apply x1 b c

/-- The 7 row pairs inside the slab. -/
theorem pay5_apply (x0 : FVec Ideal S8x385x385 .f32) :
    k0_pay5 (F := Ideal) x0 (ix2 0 0)
      = ∑ r : Fin 7, ∑ b : Fin 385, ∑ c : Fin 385, gap (x0 (ix3 r.succ b c)) (x0 (ix3 r.castSucc b c)) := by
  unfold k0_pay5
  refine (vecTotal_apply _ shapeCasts_S7_S7x1 _ reduces_S7x1_S1 _ _ shapeCasts_S1_S1x1).trans ?_
  refine Finset.sum_congr rfl fun r _ => ?_
  refine (Cert.Lib.Keepdims.rowSum_apply _ _ reduces_S7x385_S7 _ _ r).trans ?_
  refine Finset.sum_congr rfl fun b _ => ?_
  refine (Cert.Lib.LaneSum3.laneSum_apply _ _ reduces_S7x385x385_S7x385 _ _ r b).trans ?_
  refine Finset.sum_congr rfl fun c _ => ?_
  exact absf_subf_apply _ _ _ _ _
    (slice3_apply ![1, 0, 0] x0 slices_S8x385x385_o1_0_0_S7x385x385 r b c r.succ b c
      (by show r.val + 1 = 1 + r.val; omega) (by show b.val = 0 + b.val; omega) (by show c.val = 0 + c.val; omega))
    (slice3_apply ![0, 0, 0] x0 slices_S8x385x385_o0_0_0_S7x385x385 r b c r.castSucc b c
      (by show r.val = 0 + r.val; omega) (by show b.val = 0 + b.val; omega) (by show c.val = 0 + c.val; omega))

/-- The row pair that straddles the slab's end. -/
theorem pay6_apply (x0 : FVec Ideal S8x385x385 .f32) (x1 : FVec Ideal S1x385x385 .f32) :
    k0_pay6 (F := Ideal) x0 x1 (ix2 0 0)
      = ∑ b : Fin 385, ∑ c : Fin 385, gap (x1 (ix3 0 b c)) (x0 (ix3 (Fin.last 7) b c)) := by
  unfold k0_pay6
  refine (vecTotal_apply _ shapeCasts_S385_S385x1 _ reduces_S385x1_S1 _ _ shapeCasts_S1_S1x1).trans ?_
  refine Finset.sum_congr rfl fun b _ => ?_
  refine (Cert.Lib.Keepdims.rowSum_apply _ _ reduces_S385x385_S385 _ _ b).trans ?_
  refine Finset.sum_congr rfl fun c _ => ?_
  exact absf_subf_apply _ _ _ _ _ (pay4_apply x1 b c)
    ((dropRow_apply _ b c).trans
      (slice3_apply ![7, 0, 0] x0 slices_S8x385x385_o7_0_0_S1x385x385 0 b c (Fin.last 7) b c
        (by show 7 = 7 + 0; rfl) (by show b.val = 0 + b.val; omega) (by show c.val = 0 + c.val; omega)))

/-- The column pairs of the slab's rows. -/
theorem pay7_apply (x0 : FVec Ideal S8x385x385 .f32) :
    k0_pay7 (F := Ideal) x0 (ix2 0 0)
      = ∑ r : Fin 8, ∑ b : Fin 384, ∑ c : Fin 385, gap (x0 (ix3 r b.succ c)) (x0 (ix3 r b.castSucc c)) := by
  unfold k0_pay7
  refine (vecTotal_apply _ shapeCasts_S8_S8x1 _ reduces_S8x1_S1 _ _ shapeCasts_S1_S1x1).trans ?_
  refine Finset.sum_congr rfl fun r _ => ?_
  refine (Cert.Lib.Keepdims.rowSum_apply _ _ reduces_S8x384_S8 _ _ r).trans ?_
  refine Finset.sum_congr rfl fun b _ => ?_
  refine (Cert.Lib.LaneSum3.laneSum_apply _ _ reduces_S8x384x385_S8x384 _ _ r b).trans ?_
  refine Finset.sum_congr rfl fun c _ => ?_
  exact absf_subf_apply _ _ _ _ _
    (slice3_apply ![0, 1, 0] x0 slices_S8x385x385_o0_1_0_S8x384x385 r b c r b.succ c
      (by show r.val = 0 + r.val; omega) (by show b.val + 1 = 1 + b.val; omega) (by show c.val = 0 + c.val; omega))
    (slice3_apply ![0, 0, 0] x0 slices_S8x385x385_o0_0_0_S8x384x385 r b c r b.castSucc c
      (by show r.val = 0 + r.val; omega) (by show b.val = 0 + b.val; omega) (by show c.val = 0 + c.val; omega))

/-- The lane pairs of one row of the slab (the sum over the slab's rows is taken where the total is formed). -/
theorem pay8_apply (x0 : FVec Ideal S8x385x385 .f32) (r : Fin 8) :
    k0_pay8 (F := Ideal) x0 (ix2 r 0)
      = ∑ b : Fin 385, ∑ c : Fin 384, gap (x0 (ix3 r b c.succ)) (x0 (ix3 r b c.castSucc)) := by
  unfold k0_pay8
  refine (Cert.Lib.Keepdims.shapeCast_a_a1_apply _ shapeCasts_S8_S8x1 r 0).trans ?_
  refine (Cert.Lib.Keepdims.rowSum_apply _ _ reduces_S8x385_S8 _ _ r).trans ?_
  refine Finset.sum_congr rfl fun b _ => ?_
  refine (Cert.Lib.LaneSum3.laneSum_apply _ _ reduces_S8x385x384_S8x385 _ _ r b).trans ?_
  refine Finset.sum_congr rfl fun c _ => ?_
  exact absf_subf_apply _ _ _ _ _
    (slice3_apply ![0, 0, 1] x0 slices_S8x385x385_o0_0_1_S8x385x384 r b c r b c.succ
      (by show r.val = 0 + r.val; omega) (by show b.val = 0 + b.val; omega) (by show c.val + 1 = 1 + c.val; omega))
    (slice3_apply ![0, 0, 0] x0 slices_S8x385x385_o0_0_0_S8x385x384 r b c r b c.castSucc
      (by show r.val = 0 + r.val; omega) (by show b.val = 0 + b.val; omega) (by show c.val = 0 + c.val; omega))

/-- The point's total added to what the output held. -/
theorem pay2_apply (v16 v22 v31 : FVec Ideal S1x1 .f32) (v38 : FVec Ideal S8x1 .f32) (v47 : FVec Ideal S1x1 .f32) :
    k0_pay2 (F := Ideal) v16 v22 v31 v38 v47 (ix2 0 0)
      = v47 (ix2 0 0) + (((v16 (ix2 0 0) + v22 (ix2 0 0)) + v31 (ix2 0 0)) + ∑ r : Fin 8, v38 (ix2 r 0)) := by
  unfold k0_pay2
  show shapeCast S1x1 v47 shapeCasts_S1x1_S1x1 (ix2 0 0)
      + (((v16 (ix2 0 0) + v22 (ix2 0 0)) + v31 (ix2 0 0))
        + shapeCast S1x1 (multiReduction .add [0] S1 v38 0x00000000#32 reduces_S8x1_S1 (.inl rfl) rfl) shapeCasts_S1_S1x1 (ix2 0 0))
      = _
  rw [shapeCast_self]
  exact congrArg (fun t => v47 (ix2 0 0) + (((v16 (ix2 0 0) + v22 (ix2 0 0)) + v31 (ix2 0 0)) + t))
    (colTotal_apply v38 _ reduces_S8x1_S1 _ _ shapeCasts_S1_S1x1)

/-- The last row's own column and lane pairs added to what the output held. -/
theorem pay1_apply (v5 : FVec Ideal S385x385 .f32) (v67 : FVec Ideal S1x1 .f32) :
    k0_pay1 (F := Ideal) v5 v67 (ix2 0 0)
      = v67 (ix2 0 0)
        + ((∑ b : Fin 384, ∑ c : Fin 385, gap (v5 (ix2 b.succ c)) (v5 (ix2 b.castSucc c)))
          + (∑ b : Fin 385, ∑ c : Fin 384, gap (v5 (ix2 b c.succ)) (v5 (ix2 b c.castSucc)))) := by
  unfold k0_pay1
  refine (addf_apply _ _ _).trans ?_
  refine congrArg₂ (· + ·) (congrFun (shapeCast_self v67 shapeCasts_S1x1_S1x1) (ix2 0 0)) ?_
  refine (addf_apply _ _ _).trans ?_
  refine congrArg₂ (· + ·) ?_ ?_
  · refine (vecTotal_apply _ shapeCasts_S384_S384x1 _ reduces_S384x1_S1 _ _ shapeCasts_S1_S1x1).trans ?_
    refine Finset.sum_congr rfl fun b _ => ?_
    refine (Cert.Lib.Keepdims.rowSum_apply _ _ reduces_S384x385_S384 _ _ b).trans ?_
    refine Finset.sum_congr rfl fun c _ => ?_
    exact absf_subf_apply _ _ _ _ _
      (slice2_apply ![1, 0] v5 slices_S385x385_o1_0_S384x385 b c b.succ c
        (by show b.val + 1 = 1 + b.val; omega) (by show c.val = 0 + c.val; omega))
      (slice2_apply ![0, 0] v5 slices_S385x385_o0_0_S384x385 b c b.castSucc c
        (by show b.val = 0 + b.val; omega) (by show c.val = 0 + c.val; omega))
  · refine (vecTotal_apply _ shapeCasts_S385_S385x1 _ reduces_S385x1_S1 _ _ shapeCasts_S1_S1x1).trans ?_
    refine Finset.sum_congr rfl fun b _ => ?_
    refine (Cert.Lib.Keepdims.rowSum_apply _ _ reduces_S385x384_S385 _ _ b).trans ?_
    refine Finset.sum_congr rfl fun c _ => ?_
    exact absf_subf_apply _ _ _ _ _
      (slice2_apply ![0, 1] v5 slices_S385x385_o0_1_S385x384 b c b c.succ
        (by show b.val = 0 + b.val; omega) (by show c.val + 1 = 1 + c.val; omega))
      (slice2_apply ![0, 0] v5 slices_S385x385_o0_0_S385x384 b c b c.castSucc
        (by show b.val = 0 + b.val; omega) (by show c.val = 0 + c.val; omega))

end Cert.KernelIdeal.Pay

end
-- ==== Proof.LibBlockSum.lean ====
/-
  Sums over an axis cut into equal blocks, on any commutative additive monoid, generic in the extents.

  An axis of n = a * b positions is a blocks of b positions each: position p of block i is position b * i + p of the
  axis, and every position is of that form exactly once. So the sum of a function over the axis is the sum over the
  blocks of its sums inside each block; and for a function of two such axes, the sum over all pairs of positions is the
  sum over the pairs of blocks (the tiles) of the sums inside each tile.
-/
import Mathlib.Algebra.BigOperators.Fin
import Mathlib.Logic.Equiv.Fin.Basic

open scoped BigOperators

namespace Cert.Lib.BlockSum

/-- Position p of block i of an axis of n = a * b positions cut into a blocks of b. -/
def blockPos (a b n : ℕ) (h : a * b = n) : Fin a × Fin b ≃ Fin n :=
  finProdFinEquiv.trans (finCongr h)

/-- It is position b * i + p of the axis. -/
theorem blockPos_val (a b n : ℕ) (h : a * b = n) (i : Fin a) (p : Fin b) :
    (blockPos a b n h (i, p)).val = p.val + b * i.val := rfl

/-- A sum over an axis is the sum over its blocks of the sums inside each block. -/
theorem sum_blocks {M : Type*} [AddCommMonoid M] (a b n : ℕ) (h : a * b = n) (f : Fin n → M) :
    ∑ i : Fin a, ∑ p : Fin b, f (blockPos a b n h (i, p)) = ∑ P : Fin n, f P := by
  rw [← Fintype.sum_prod_type' (fun i p => f (blockPos a b n h (i, p)))]
  exact Equiv.sum_comp (blockPos a b n h) f

/-- A sum over all pairs of positions of two axes is the sum over the tiles (a block of the first axis against a block
    of the second) of the sums over each tile's pairs. -/
theorem sum_tiles {M : Type*} [AddCommMonoid M] (a b n a' b' n' : ℕ) (h : a * b = n) (h' : a' * b' = n')
    (L : Fin n → Fin n' → M) :
    ∑ i : Fin a, ∑ j : Fin a', ∑ p : Fin b, ∑ q : Fin b', L (blockPos a b n h (i, p)) (blockPos a' b' n' h' (j, q))
      = ∑ P : Fin n, ∑ Q : Fin n', L P Q := by
  rw [← sum_blocks a b n h (fun P => ∑ Q : Fin n', L P Q)]
  refine Finset.sum_congr rfl fun i _ => ?_
  rw [Finset.sum_comm]
  refine Finset.sum_congr rfl fun p _ => ?_
  rw [← sum_blocks a' b' n' h' (fun Q => L (blockPos a b n h (i, p)) Q)]

end Cert.Lib.BlockSum
-- ==== Proof.Spec.lean ====
/-
  The connectivity loss of a 385 x 385 x 385 grid of values, summed two ways.

  For every pair of neighbours along each of the three axes the loss has one term: gx a b c for the pair of rows
  (a, a + 1) at column (b, c), gy a b c for the pair of columns (b, b + 1) in row a, gz a b c for the pair of
  lanes (c, c + 1).  The whole loss is the three full sums added up.  The same number is reached by walking the
  384 row pairs in 48 slabs of 8 rows: slab t contributes its 7 inner row pairs, the pair that straddles the slab's
  end, and the column and lane pairs of its own 8 rows; the very last row (row 384) belongs to no slab, and its column and
  lane pairs are added once, at the last slab.  Only commutativity and associativity of addition are used.
-/
import Mathlib.Algebra.BigOperators.Fin
import proofs.«170673_j44753559224580_1_alg».proof.Proof.LibBlockSum

open scoped BigOperators

namespace Cert.Spec

variable {M : Type*} [AddCommMonoid M]

/-- Row `8 t + r` of the grid (slab `t`, row `r` of the slab), as one of the 385 rows. -/
def row (t : Fin 48) (r : Fin 8) : Fin 385 := ⟨8 * t.val + r.val, by have := t.isLt; have := r.isLt; omega⟩
/-- The same number as the index of the row pair (8 t + r, 8 t + r + 1), one of the 384. -/
def rowPair (t : Fin 48) (r : Fin 8) : Fin 384 := ⟨8 * t.val + r.val, by have := t.isLt; have := r.isLt; omega⟩
/-- The last row, which no slab holds. -/
def lastRow : Fin 385 := ⟨384, by omega⟩

/-- What slab `t` adds. -/
def slabTerm (gx : Fin 384 → Fin 385 → Fin 385 → M) (gy : Fin 385 → Fin 384 → Fin 385 → M)
    (gz : Fin 385 → Fin 385 → Fin 384 → M) (t : Fin 48) : M :=
  (((∑ r : Fin 7, ∑ b : Fin 385, ∑ c : Fin 385, gx (rowPair t r.castSucc) b c)
      + (∑ b : Fin 385, ∑ c : Fin 385, gx (rowPair t (Fin.last 7)) b c))
    + (∑ r : Fin 8, ∑ b : Fin 384, ∑ c : Fin 385, gy (row t r) b c))
    + (∑ r : Fin 8, ∑ b : Fin 385, ∑ c : Fin 384, gz (row t r) b c)

/-- What the last row adds. -/
def lastRowTerm (gy : Fin 385 → Fin 384 → Fin 385 → M) (gz : Fin 385 → Fin 385 → Fin 384 → M) : M :=
  (∑ b : Fin 384, ∑ c : Fin 385, gy lastRow b c) + (∑ b : Fin 385, ∑ c : Fin 384, gz lastRow b c)

/-- The running total after slab `n`: it starts from zero at slab 0, and at the last slab (47) the last row's
    terms go in before the slab's own. -/
def running (gx : Fin 384 → Fin 385 → Fin 385 → M) (gy : Fin 385 → Fin 384 → Fin 385 → M)
    (gz : Fin 385 → Fin 385 → Fin 384 → M) : (n : ℕ) → n < 48 → M
  | 0, h => 0 + slabTerm gx gy gz ⟨0, h⟩
  | n + 1, h =>
    if n + 1 = 47 then (running gx gy gz n (Nat.lt_of_succ_lt h) + lastRowTerm gy gz) + slabTerm gx gy gz ⟨n + 1, h⟩
    else running gx gy gz n (Nat.lt_of_succ_lt h) + slabTerm gx gy gz ⟨n + 1, h⟩

/-- The whole loss: the three full sums, each started from zero, added left to right. -/
def total (gx : Fin 384 → Fin 385 → Fin 385 → M) (gy : Fin 385 → Fin 384 → Fin 385 → M)
    (gz : Fin 385 → Fin 385 → Fin 384 → M) : M :=
  ((0 + ∑ a : Fin 384, ∑ b : Fin 385, ∑ c : Fin 385, gx a b c)
      + (0 + ∑ a : Fin 385, ∑ b : Fin 384, ∑ c : Fin 385, gy a b c))
    + (0 + ∑ a : Fin 385, ∑ b : Fin 385, ∑ c : Fin 384, gz a b c)

/-- The row pair `8 t + r` is position `r` of block `t` when the 384 row pairs are cut into 48 blocks of 8. -/
theorem rowPair_eq_blockPos (t : Fin 48) (r : Fin 8) :
    rowPair t r = Cert.Lib.BlockSum.blockPos 48 8 384 rfl (t, r) := by
  apply Fin.ext
  rw [Cert.Lib.BlockSum.blockPos_val]
  show 8 * t.val + r.val = r.val + 8 * t.val
  omega

/-- Row `8 t + r` is the same position, seen among the 385 rows. -/
theorem row_eq_blockPos (t : Fin 48) (r : Fin 8) :
    row t r = (Cert.Lib.BlockSum.blockPos 48 8 384 rfl (t, r)).castSucc := by
  apply Fin.ext
  rw [Fin.val_castSucc, Cert.Lib.BlockSum.blockPos_val]
  show 8 * t.val + r.val = r.val + 8 * t.val
  omega

/-- Summing over the slabs and the 8 row pairs of each slab is summing over all 384 row pairs. -/
theorem sum_rowPair (F : Fin 384 → M) :
    ∑ t : Fin 48, ∑ r : Fin 8, F (rowPair t r) = ∑ P : Fin 384, F P := by
  simp only [rowPair_eq_blockPos]
  exact Cert.Lib.BlockSum.sum_blocks 48 8 384 rfl F

/-- Summing over the slabs and the 8 rows of each slab, then adding the last row, is summing over all 385 rows. -/
theorem sum_row_add_last (F : Fin 385 → M) :
    (∑ t : Fin 48, ∑ r : Fin 8, F (row t r)) + F lastRow = ∑ a : Fin 385, F a := by
  conv_rhs => rw [Fin.sum_univ_castSucc]
  simp only [row_eq_blockPos]
  rw [Cert.Lib.BlockSum.sum_blocks 48 8 384 rfl (fun P => F P.castSucc)]
  rfl

/-- Before the last slab the running total is the plain sum of the slabs so far. -/
theorem running_eq_sum (gx : Fin 384 → Fin 385 → Fin 385 → M) (gy : Fin 385 → Fin 384 → Fin 385 → M)
    (gz : Fin 385 → Fin 385 → Fin 384 → M) :
    ∀ (n : ℕ) (h : n < 47),
      running gx gy gz n (by omega) = ∑ i : Fin (n + 1), slabTerm gx gy gz ⟨i.val, by have := i.isLt; omega⟩
  | 0, h => by
    rw [running, Fin.sum_univ_one, zero_add]
    rfl
  | n + 1, h => by
    rw [running, if_neg (by omega), running_eq_sum gx gy gz n (by omega)]
    conv_rhs => rw [Fin.sum_univ_castSucc]
    rfl

/-- After the last slab the running total is the sum of all 48 slabs plus the last row's terms. -/
theorem running_last_eq_sum (gx : Fin 384 → Fin 385 → Fin 385 → M) (gy : Fin 385 → Fin 384 → Fin 385 → M)
    (gz : Fin 385 → Fin 385 → Fin 384 → M) :
    running gx gy gz 47 (by omega) = (∑ t : Fin 48, slabTerm gx gy gz t) + lastRowTerm gy gz := by
  have h46 := running_eq_sum gx gy gz 46 (by omega)
  have h47 : running gx gy gz 47 (by omega)
      = (running gx gy gz 46 (by omega) + lastRowTerm gy gz) + slabTerm gx gy gz ⟨47, by omega⟩ := by
    show running gx gy gz (46 + 1) _ = _
    rw [running, if_pos rfl]
  rw [h47, h46, Fin.sum_univ_castSucc (fun t : Fin 48 => slabTerm gx gy gz t)]
  exact add_right_comm _ _ _

/-- The 48 slabs together: all the row pairs' terms, and the column and lane terms of the first 384 rows. -/
theorem sum_slabTerm (gx : Fin 384 → Fin 385 → Fin 385 → M) (gy : Fin 385 → Fin 384 → Fin 385 → M)
    (gz : Fin 385 → Fin 385 → Fin 384 → M) :
    ∑ t : Fin 48, slabTerm gx gy gz t
      = ((∑ a : Fin 384, ∑ b : Fin 385, ∑ c : Fin 385, gx a b c)
          + (∑ t : Fin 48, ∑ r : Fin 8, ∑ b : Fin 384, ∑ c : Fin 385, gy (row t r) b c))
        + (∑ t : Fin 48, ∑ r : Fin 8, ∑ b : Fin 385, ∑ c : Fin 384, gz (row t r) b c) := by
  have hx : ∀ t : Fin 48,
      (∑ r : Fin 7, ∑ b : Fin 385, ∑ c : Fin 385, gx (rowPair t r.castSucc) b c)
        + (∑ b : Fin 385, ∑ c : Fin 385, gx (rowPair t (Fin.last 7)) b c)
      = ∑ r : Fin 8, ∑ b : Fin 385, ∑ c : Fin 385, gx (rowPair t r) b c := fun t =>
    (Fin.sum_univ_castSucc (fun r : Fin 8 => ∑ b : Fin 385, ∑ c : Fin 385, gx (rowPair t r) b c)).symm
  simp only [slabTerm, hx, Finset.sum_add_distrib]
  rw [sum_rowPair (fun a => ∑ b : Fin 385, ∑ c : Fin 385, gx a b c)]

/-- Regrouping five summands. -/
theorem add_regroup (x y z u v : M) : ((x + y) + z) + (u + v) = (x + (y + u)) + (z + v) := by
  rw [add_add_add_comm (x + y) z u v, add_assoc x y u]

/-- After the last slab the running total is the whole loss. -/
theorem running_last_eq_total (gx : Fin 384 → Fin 385 → Fin 385 → M) (gy : Fin 385 → Fin 384 → Fin 385 → M)
    (gz : Fin 385 → Fin 385 → Fin 384 → M) :
    running gx gy gz 47 (by omega) = total gx gy gz := by
  rw [running_last_eq_sum, sum_slabTerm, lastRowTerm, total, zero_add, zero_add, zero_add,
    ← sum_row_add_last (fun a => ∑ b : Fin 384, ∑ c : Fin 385, gy a b c),
    ← sum_row_add_last (fun a => ∑ b : Fin 385, ∑ c : Fin 384, gz a b c)]
  exact add_regroup _ _ _ _ _

end Cert.Spec
-- ==== Proof.KIValue.lean ====
/-
  The kernel's accumulation read on the extended reals: after point `n` the output's one entry is the running total
  of the connectivity loss over the slabs 0 … n (Spec.lean's `running`), each pair's term the absolute difference of
  the grid's two neighbouring values.
-/
import proofs.«170673_j44753559224580_1_alg».proof.Proof.KIStep
import proofs.«170673_j44753559224580_1_alg».proof.Proof.KIPayloads
import proofs.«170673_j44753559224580_1_alg».proof.Proof.Spec
import Mathlib.Data.EReal.Basic

noncomputable section

namespace Cert.KernelIdeal.Value

open Cert.KernelIdeal Cert.KernelIdeal.Gen Cert.KernelIdeal.Step Cert.KernelIdeal.Pay
open Idealize.ShloMosaic Idealize.ShloMosaic.ValueIdx
open scoped BigOperators

/-- The term of the row pair (a, a + 1) at column b, lane c. -/
def gx (occ : FVec Ideal S385x385x385 .f32) (a : Fin 384) (b c : Fin 385) : EReal :=
  gap (occ (ix3 a.succ b c)) (occ (ix3 a.castSucc b c))
/-- The term of the column pair (b, b + 1) in row a, lane c. -/
def gy (occ : FVec Ideal S385x385x385 .f32) (a : Fin 385) (b : Fin 384) (c : Fin 385) : EReal :=
  gap (occ (ix3 a b.succ c)) (occ (ix3 a b.castSucc c))
/-- The term of the lane pair (c, c + 1) in row a, column b. -/
def gz (occ : FVec Ideal S385x385x385 .f32) (a b : Fin 385) (c : Fin 384) : EReal :=
  gap (occ (ix3 a b c.succ)) (occ (ix3 a b c.castSucc))

/-- An entry of slab `t` is the grid's entry in row 8 t + r. -/
theorem slab_apply (occ : FVec Ideal S385x385x385 .f32) (t : Fin 48) (r : Fin 8) (b c : Fin 385) :
    slab (F := Ideal) occ t (ix3 r b c) = occ (ix3 (Cert.Spec.row t r) b c) := rfl

/-- The row after slab `t` is row 8 t + 8: the upper row of the pair (8 t + 7, 8 t + 8). -/
theorem nextRow_apply (occ : FVec Ideal S385x385x385 .f32) (t : Fin 48) (b c : Fin 385) :
    nextRow (F := Ideal) occ t (ix3 0 b c) = occ (ix3 (Cert.Spec.rowPair t (Fin.last 7)).succ b c) := rfl

/-- After the last slab (t = 47) that row is row 384, the grid's last. -/
theorem nextRow_last (occ : FVec Ideal S385x385x385 .f32) (t : Fin 48) (ht : t.val = 47) (b c : Fin 385) :
    nextRow (F := Ideal) occ t (ix3 0 b c) = occ (ix3 Cert.Spec.lastRow b c) := by
  have hrow : (Cert.Spec.rowPair t (Fin.last 7)).succ = Cert.Spec.lastRow :=
    Fin.ext (by show 8 * t.val + 7 + 1 = 384; omega)
  rw [nextRow_apply, hrow]

/-- Row r + 1 of the slab is the upper row of the pair (8 t + r, 8 t + r + 1). -/
theorem row_succ (t : Fin 48) (r : Fin 7) : Cert.Spec.row t r.succ = (Cert.Spec.rowPair t r.castSucc).succ :=
  Fin.ext (by show 8 * t.val + (r.val + 1) = 8 * t.val + r.val + 1; omega)

/-- Row r of the slab is the lower row of that pair. -/
theorem row_castSucc (t : Fin 48) (r : Fin 7) : Cert.Spec.row t r.castSucc = (Cert.Spec.rowPair t r.castSucc).castSucc :=
  Fin.ext rfl

/-- The slab's last row is the lower row of the pair that straddles the slab's end. -/
theorem row_last (t : Fin 48) : Cert.Spec.row t (Fin.last 7) = (Cert.Spec.rowPair t (Fin.last 7)).castSucc :=
  Fin.ext rfl

/-- What one point adds to the output is the slab's term of the loss. -/
theorem addPoint_slab (occ : FVec Ideal S385x385x385 .f32) (t : Fin 48) (prev : FVec Ideal S1x1 .f32) :
    addPoint (F := Ideal) (slab occ t) (nextRow occ t) prev (ix2 0 0)
      = prev (ix2 0 0) + Cert.Spec.slabTerm (gx occ) (gy occ) (gz occ) t := by
  have h5 : (∑ r : Fin 7, ∑ b : Fin 385, ∑ c : Fin 385,
        gap (slab (F := Ideal) occ t (ix3 r.succ b c)) (slab (F := Ideal) occ t (ix3 r.castSucc b c)))
      = ∑ r : Fin 7, ∑ b : Fin 385, ∑ c : Fin 385, gx occ (Cert.Spec.rowPair t r.castSucc) b c := by
    refine Finset.sum_congr rfl fun r _ => Finset.sum_congr rfl fun b _ => Finset.sum_congr rfl fun c _ => ?_
    rw [slab_apply, slab_apply, row_succ, row_castSucc]; rfl
  have h6 : (∑ b : Fin 385, ∑ c : Fin 385,
        gap (nextRow (F := Ideal) occ t (ix3 0 b c)) (slab (F := Ideal) occ t (ix3 (Fin.last 7) b c)))
      = ∑ b : Fin 385, ∑ c : Fin 385, gx occ (Cert.Spec.rowPair t (Fin.last 7)) b c := by
    refine Finset.sum_congr rfl fun b _ => Finset.sum_congr rfl fun c _ => ?_
    rw [slab_apply, nextRow_apply, row_last]; rfl
  have h7 : (∑ r : Fin 8, ∑ b : Fin 384, ∑ c : Fin 385,
        gap (slab (F := Ideal) occ t (ix3 r b.succ c)) (slab (F := Ideal) occ t (ix3 r b.castSucc c)))
      = ∑ r : Fin 8, ∑ b : Fin 384, ∑ c : Fin 385, gy occ (Cert.Spec.row t r) b c := by
    refine Finset.sum_congr rfl fun r _ => Finset.sum_congr rfl fun b _ => Finset.sum_congr rfl fun c _ => ?_
    rw [slab_apply, slab_apply]; rfl
  have h8 : (∑ r : Fin 8, ∑ b : Fin 385, ∑ c : Fin 384,
        gap (slab (F := Ideal) occ t (ix3 r b c.succ)) (slab (F := Ideal) occ t (ix3 r b c.castSucc)))
      = ∑ r : Fin 8, ∑ b : Fin 385, ∑ c : Fin 384, gz occ (Cert.Spec.row t r) b c := by
    refine Finset.sum_congr rfl fun r _ => Finset.sum_congr rfl fun b _ => Finset.sum_congr rfl fun c _ => ?_
    rw [slab_apply, slab_apply]; rfl
  unfold addPoint
  rw [pay2_apply, pay5_apply, pay6_apply, pay7_apply]
  simp only [pay8_apply]
  rw [h5, h6, h7, h8]
  rfl

/-- At the last point the last row's own column and lane pairs go in first. -/
theorem lastRow_step (occ : FVec Ideal S385x385x385 .f32) (t : Fin 48) (ht : t.val = 47) (prev : FVec Ideal S1x1 .f32) :
    k0_pay1 (F := Ideal) (k0_pay4 (nextRow occ t)) prev (ix2 0 0)
      = prev (ix2 0 0) + Cert.Spec.lastRowTerm (gy occ) (gz occ) := by
  rw [pay1_apply]
  simp only [pay4_apply, nextRow_last occ t ht]
  rfl

/-- After point `n` the output holds the running total over the slabs 0 … n. -/
theorem accAt_eq_running (occ : FVec Ideal S385x385x385 .f32) (n : ℕ) (h : n < 48) :
    accAt (F := Ideal) occ n h (ix2 0 0) = Cert.Spec.running (gx occ) (gy occ) (gz occ) n h := by
  induction n with
  | zero =>
    rw [accAt_zero (F := Ideal)]
    unfold stepFirst
    rw [addPoint_slab, pay3_apply]
    rfl
  | succ n ih =>
    by_cases hl : n + 1 = 47
    · rw [accAt_succ_last (F := Ideal) occ n h hl]
      unfold stepLast
      rw [addPoint_slab, lastRow_step occ ⟨n + 1, h⟩ hl, ih (Nat.lt_of_succ_lt h)]
      rw [Cert.Spec.running, if_pos hl]
    · rw [accAt_succ_mid (F := Ideal) occ n h hl]
      unfold stepMid
      rw [addPoint_slab, ih (Nat.lt_of_succ_lt h)]
      rw [Cert.Spec.running, if_neg hl]

/-- After the last point the output holds the whole loss. -/
theorem accAt_last (occ : FVec Ideal S385x385x385 .f32) :
    accAt (F := Ideal) occ 47 (by omega) (ix2 0 0) = Cert.Spec.total (gx occ) (gy occ) (gz occ) :=
  (accAt_eq_running occ 47 (by omega)).trans (Cert.Spec.running_last_eq_total _ _ _)

end Cert.KernelIdeal.Value

end
-- ==== Proof.RefValue.lean ====
/-
  The reference's result read on the extended reals: the three full sums of absolute differences of neighbouring
  values, along the rows, the columns and the lanes, each started from zero and added left to right — Spec.lean's
  `total`, each term the absolute difference of the grid's two neighbouring values.
-/
import proofs.«170673_j44753559224580_1_alg».proof.Proof.Gen.ReferenceIdeal.Read
import proofs.«170673_j44753559224580_1_alg».proof.Proof.Spec
import Idealize.ShloMosaic.PureOps.Ideal.Laws
import Idealize.ShloMosaic.Lib.ValueIdx
import Mathlib.Data.EReal.Basic

noncomputable section

namespace Cert.ReferenceIdeal.RefValue

open Cert.ReferenceIdeal Cert.ReferenceIdeal.Gen Idealize.ShloMosaic Idealize.ShloMosaic.ValueIdx
open scoped BigOperators

/-- The absolute difference on the extended reals, as the float operations spell it. -/
abbrev gap (u v : EReal) : EReal := max (u - v) (-(u - v))

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! The six slices' reading indices, on an index given by its coordinates: the upper neighbour's slice starts at 1 on
    its axis, so it reads the successor; the lower neighbour's slice starts at 0 and reads the same coordinate. -/

theorem idx_v0 (a : Fin 384) (b c : Fin 385) : Read.idx_main_v0 (ix3 a b c) = ix3 a.succ b c := by
  funext d
  match d with
  | ⟨0, _⟩ => exact Fin.ext (by show 1 + a.val = a.val + 1; omega)
  | ⟨1, _⟩ => rfl
  | ⟨2, _⟩ => rfl

theorem idx_v1 (a : Fin 384) (b c : Fin 385) : Read.idx_main_v1 (ix3 a b c) = ix3 a.castSucc b c := by
  funext d
  match d with
  | ⟨0, _⟩ => rfl
  | ⟨1, _⟩ => rfl
  | ⟨2, _⟩ => rfl

theorem idx_v5 (a : Fin 385) (b : Fin 384) (c : Fin 385) : Read.idx_main_v5 (ix3 a b c) = ix3 a b.succ c := by
  funext d
  match d with
  | ⟨0, _⟩ => rfl
  | ⟨1, _⟩ => exact Fin.ext (by show 1 + b.val = b.val + 1; omega)
  | ⟨2, _⟩ => rfl

theorem idx_v6 (a : Fin 385) (b : Fin 384) (c : Fin 385) : Read.idx_main_v6 (ix3 a b c) = ix3 a b.castSucc c := by
  funext d
  match d with
  | ⟨0, _⟩ => rfl
  | ⟨1, _⟩ => rfl
  | ⟨2, _⟩ => rfl

theorem idx_v10 (a b : Fin 385) (c : Fin 384) : Read.idx_main_v10 (ix3 a b c) = ix3 a b c.succ := by
  funext d
  match d with
  | ⟨0, _⟩ => rfl
  | ⟨1, _⟩ => rfl
  | ⟨2, _⟩ => exact Fin.ext (by show 1 + c.val = c.val + 1; omega)

theorem idx_v11 (a b : Fin 385) (c : Fin 384) : Read.idx_main_v11 (ix3 a b c) = ix3 a b c.castSucc := by
  funext d
  match d with
  | ⟨0, _⟩ => rfl
  | ⟨1, _⟩ => rfl
  | ⟨2, _⟩ => rfl

/-- The first reduction: zero plus the sum, over all pairs of neighbouring rows, of the absolute differences. -/
theorem v4_eq (occ : FVec Ideal S385x385x385 .f32) :
    Read.val_main_v4 (F := Ideal) occ ix0
      = 0 + ∑ a : Fin 384, ∑ b : Fin 385, ∑ c : Fin 385, gap (occ (ix3 a.succ b c)) (occ (ix3 a.castSucc b c)) := by
  rw [Read.val_main_v4_apply, Read.val_main_cst_apply, Ideal.ofBits_def, Ideal.ofBits_zero_f32, sum_idx3]
  congr 1
  refine Finset.sum_congr rfl fun a _ => Finset.sum_congr rfl fun b _ => Finset.sum_congr rfl fun c _ => ?_
  rw [Read.val_main_v3_apply, Read.val_main_v2_apply, Read.val_main_v0_apply, Read.val_main_v1_apply, idx_v0, idx_v1]
  rfl

/-- The second reduction: the same over all pairs of neighbouring columns. -/
theorem v9_eq (occ : FVec Ideal S385x385x385 .f32) :
    Read.val_main_v9 (F := Ideal) occ ix0
      = 0 + ∑ a : Fin 385, ∑ b : Fin 384, ∑ c : Fin 385, gap (occ (ix3 a b.succ c)) (occ (ix3 a b.castSucc c)) := by
  rw [Read.val_main_v9_apply, Read.val_main_cst_0_apply, Ideal.ofBits_def, Ideal.ofBits_zero_f32, sum_idx3]
  congr 1
  refine Finset.sum_congr rfl fun a _ => Finset.sum_congr rfl fun b _ => Finset.sum_congr rfl fun c _ => ?_
  rw [Read.val_main_v8_apply, Read.val_main_v7_apply, Read.val_main_v5_apply, Read.val_main_v6_apply, idx_v5, idx_v6]
  rfl

/-- The third reduction: the same over all pairs of neighbouring lanes. -/
theorem v14_eq (occ : FVec Ideal S385x385x385 .f32) :
    Read.val_main_v14 (F := Ideal) occ ix0
      = 0 + ∑ a : Fin 385, ∑ b : Fin 385, ∑ c : Fin 384, gap (occ (ix3 a b c.succ)) (occ (ix3 a b c.castSucc)) := by
  rw [Read.val_main_v14_apply, Read.val_main_cst_1_apply, Ideal.ofBits_def, Ideal.ofBits_zero_f32, sum_idx3]
  congr 1
  refine Finset.sum_congr rfl fun a _ => Finset.sum_congr rfl fun b _ => Finset.sum_congr rfl fun c _ => ?_
  rw [Read.val_main_v13_apply, Read.val_main_v12_apply, Read.val_main_v10_apply, Read.val_main_v11_apply, idx_v10, idx_v11]
  rfl

/-- The reference's scalar is the whole loss. -/
theorem ref_eq_total (occ : FVec Ideal S385x385x385 .f32) :
    Cert.ReferenceIdeal.Read.val_main_v16 (F := Ideal) occ ix0
      = Cert.Spec.total
          (fun (a : Fin 384) (b c : Fin 385) => gap (occ (ix3 a.succ b c)) (occ (ix3 a.castSucc b c)))
          (fun (a : Fin 385) (b : Fin 384) (c : Fin 385) => gap (occ (ix3 a b.succ c)) (occ (ix3 a b.castSucc c)))
          (fun (a b : Fin 385) (c : Fin 384) => gap (occ (ix3 a b c.succ)) (occ (ix3 a b c.castSucc))) := by
  rw [Read.val_main_v16_apply, Read.val_main_v15_apply, v4_eq, v9_eq, v14_eq]
  rfl

end Cert.ReferenceIdeal.RefValue

end
-- ==== Proof.lean ====
/-
  The connectivity loss of a 385 x 385 x 385 grid: the sum, over every pair of neighbouring values along each of
  the three axes, of the absolute difference of the pair.

  The kernel walks the grid in 48 slabs of 8 rows.  At each grid point it holds the slab and the single row that
  follows it (two windows of the one argument array), adds up the slab's 7 inner row pairs, the pair that straddles
  the slab's end, and the column and lane pairs of the slab's own rows, and accumulates the total in a one-entry
  output that is reset at the first point; the grid's last row lies in no slab, and its own column and lane pairs are
  added at the last point.  The reference takes the three full sums and adds them.  On the extended reals addition
  is commutative and associative, so the slab-by-slab running total after the last point is the three full sums
  (Spec.lean); the kernel's value is read off its run point by point (KIStep.lean, KIPayloads.lean, KIValue.lean,
  KIFrame.lean) and the reference's off its operations (RefValue.lean).  Neither side needs the inputs to be finite.

  The frames: the argument array is staged by two windows, so its buffer is held in two halves of the full share while
  the region runs and nothing writes it (KIFrame.lean for the idealized program, KFrame.lean for the word-level one);
  the reference is a straight line of host operations.
-/
import proofs.«170673_j44753559224580_1_alg».proof.Defs
import proofs.«170673_j44753559224580_1_alg».proof.Proof.Gen.Kernel
import proofs.«170673_j44753559224580_1_alg».proof.Proof.Gen.KernelIdeal
import proofs.«170673_j44753559224580_1_alg».proof.Proof.Gen.ReferenceIdeal
import proofs.«170673_j44753559224580_1_alg».proof.Proof.Gen.Pre_finite_inputs
import proofs.«170673_j44753559224580_1_alg».proof.Proof.Gen.ReferenceIdeal.Run
import proofs.«170673_j44753559224580_1_alg».proof.Proof.Gen.ReferenceIdeal.Read
import proofs.«170673_j44753559224580_1_alg».proof.Proof.KFrame
import proofs.«170673_j44753559224580_1_alg».proof.Proof.KIFrame
import proofs.«170673_j44753559224580_1_alg».proof.Proof.KIValue
import proofs.«170673_j44753559224580_1_alg».proof.Proof.RefValue
import Idealize.ShloMosaic.Adequacy
import Idealize.ShloMosaic.Init

noncomputable section

namespace Cert.Proof

open Idealize.ShloMosaic Idealize.ShloMosaic.TcCoe Idealize.ShloMosaic.ValueIdx Idealize.SL.Sem

/-- The word-level program runs to its end and leaves the grid as it found it. -/
theorem frame_k [Cert.Kernel.Facts] [Cert.Pre_finite_inputs.Facts] : Cert.frame_Kernel :=
  fun m ρ _ => Cert.Kernel.Fr.frame (F := Bits) m ρ

/-- So does the idealized one. -/
theorem frame_ki [Cert.KernelIdeal.Facts] [Cert.Pre_finite_inputs.Facts] : Cert.frame_KernelIdeal :=
  fun m ρ _ => Cert.KernelIdeal.Fr.frame (F := Ideal) m ρ

/-- The reference is host operations only: its run, with the result dropped. -/
theorem frame_ri [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- Both programs end with the whole loss of the grid: the kernel's running total after the last point, the
    reference's three full sums. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c _ => Cert.Spec.total (M := EReal)
      (Cert.KernelIdeal.Value.gx (m ((c.tc : Thread Cert.KernelIdeal.nD Cert.KernelIdeal.τ).loc Cert.KernelIdeal.main_arg0)))
      (Cert.KernelIdeal.Value.gy (m ((c.tc : Thread Cert.KernelIdeal.nD Cert.KernelIdeal.τ).loc Cert.KernelIdeal.main_arg0)))
      (Cert.KernelIdeal.Value.gz (m ((c.tc : Thread Cert.KernelIdeal.nD Cert.KernelIdeal.τ).loc Cert.KernelIdeal.main_arg0))), ?_, ?_⟩
  · refine (θ_run Cert.KernelIdeal.defs _ _).mono (fun _ h c => ⟨(h c).1.trans ?_, (h c).2⟩)
      (Cert.KernelIdeal.Fr.run_value (F := Ideal) m ρ)
    funext _
    exact Cert.KernelIdeal.Value.accAt_last _
  · refine (θ_run Cert.ReferenceIdeal.defs _ _).mono (fun _ h c => ⟨?_, (h c).2⟩)
      (Cert.ReferenceIdeal.Value.run (F := Ideal) m' ρ')
    rw [(h c).1, Cert.ReferenceIdeal.Read.val_main_v16_eq, hagree c]
    funext i
    rw [eq_ix0 i]
    exact Cert.ReferenceIdeal.RefValue.ref_eq_total _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
